-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S_ : Shape := ⟨0, ![]⟩

class Facts : Prop where
  bcast_S_S512x33x128 : S_.BroadcastsInDim S512x33x128 (![] : Fin 0 → Fin S512x33x128.rank)
  reducesTo_S512x33x128_S_d0_1_2 : S512x33x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S512x32x128 : S_.BroadcastsInDim S512x32x128 (![] : Fin 0 → Fin S512x32x128.rank)
  reducesTo_S512x32x128_S_d0_1_2 : S512x32x128.ReducesTo [0, 1, 2] S_

variable [Facts]

def fn_part2 {F : FTy → Type} [FloatOps F] (main_arg7 : FVec F S512x32x128 .f32) (main_v33 : IVec S_ 1) : IVec S_ 1 :=
  let main_v34 : FVec F S512x32x128 .f32 := Host.absf main_arg7
  let main_cst_12 : FVec F S_ .f32 := constant S_ .f32 0x7F800000#32
  let main_v35 : FVec F S512x32x128 .f32 := broadcastInDim S512x32x128 ![] bcast_S_S512x32x128 main_cst_12
  let main_v36 : IVec S512x32x128 1 := cmpf .olt main_v34 main_v35
  let main_c_13 : IVec S_ 1 := constantI S_ 1 1#1
  let main_v37 : IVec S_ 1 := (fun x v => Host.reduce IntOp.andi x v reducesTo_S512x32x128_S_d0_1_2 h_S_) main_v36 main_c_13
  let main_v38 : IVec S_ 1 := andi main_v33 main_v37
  main_v38

def fn_part1 {F : FTy → Type} [FloatOps F] (main_arg4 : FVec F S1x256 .f32) (main_arg5 : FVec F S256x128 .f32) (main_arg6 : FVec F S1x128 .f32) (main_arg7 : FVec F S512x32x128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S512x33x128 .f32) (main_arg1 : FVec F S128x256 .f32) (main_arg2 : FVec F S1x256 .f32) (main_arg3 : FVec F S256x256 .f32) (main_arg4 : FVec F S1x256 .f32) (main_arg5 : FVec F S256x128 .f32) (main_arg6 : FVec F S1x128 .f32) (main_arg7 : FVec F S512x32x128 .f32) : IVec S_ 1 :=
  let main_v0 : FVec F S512x33x128 .f32 := Host.absf main_arg0
  let main_cst : FVec F S_ .f32 := constant S_ .f32 0x7F800000#32
  let main_v1 : FVec F S512x33x128 .f32 := broadcastInDim S512x33x128 ![] bcast_S_S512x33x128 main_cst
  let main_v2 : IVec S512x33x128 1 := cmpf .olt main_v0 main_v1
  let main_c : IVec S_ 1 := constantI S_ 1 1#1
  let main_v3 : IVec S_ 1 := (fun x v => Host.reduce IntOp.andi x v reducesTo_S512x33x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S512x1x128 : Shape := ⟨3, ![512, 1, 128]⟩
abbrev S512x128 : Shape := ⟨2, ![512, 128]⟩
abbrev S512x4096 : Shape := ⟨2, ![512, 4096]⟩
abbrev S128x128 : Shape := ⟨2, ![128, 128]⟩
abbrev S128x4096 : Shape := ⟨2, ![128, 4096]⟩

abbrev nBuf : Space → Nat
  | .hbm => 13
  | .vmem => 12
  | .smem => 0
  | _ => 0

abbrev bufTy : (tb : Table) → Fin (tcTables nBuf tb) → BufTy
  | .hbm, ⟨0, _⟩ => ⟨S512x33x128, .f32⟩
  | .hbm, ⟨1, _⟩ => ⟨S128x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S512x32x128, .f32⟩
  | .hbm, ⟨8, _⟩ => ⟨S512x1x128, .f32⟩
  | .hbm, ⟨9, _⟩ => ⟨S512x128, .f32⟩
  | .hbm, ⟨10, _⟩ => ⟨S512x4096, .f32⟩
  | .hbm, ⟨11, _⟩ => ⟨S512x4096, .f32⟩
  | .hbm, ⟨12, _⟩ => ⟨S512x32x128, .f32⟩
  | .local _ .vmem, ⟨0, _⟩ => ⟨S128x128, .f32⟩
  | .local _ .vmem, ⟨1, _⟩ => ⟨S128x128, .f32⟩
  | .local _ .vmem, ⟨2, _⟩ => ⟨S128x4096, .f32⟩
  | .local _ .vmem, ⟨3, _⟩ => ⟨S128x4096, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x4096, .f32⟩
  | .local _ .vmem, ⟨11, _⟩ => ⟨S128x4096, .f32⟩
  | _, _ => ⟨S512x33x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S512x33x128_S512x1x128_0_0_0 : S512x33x128.Slices ![0, 0, 0] S512x1x128
  shapeCasts_S512x1x128_S512x128 : S512x1x128.ShapeCasts S512x128
  shapeCasts_S512x32x128_S512x4096 : S512x32x128.ShapeCasts S512x4096
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x4096_S128x128_0_0 : ∀ a, (![0, 0] : Fin 2 → Nat) a + S128x128.size a ≤ S128x4096.size a
  slices_S128x4096_o0_0_S128x128 : S128x4096.Slices ![0, 0] S128x128
  inb_S128x4096_S128x128_0_128 : ∀ a, (![0, 128] : Fin 2 → Nat) a + S128x128.size a ≤ S128x4096.size a
  slices_S128x4096_o0_128_S128x128 : S128x4096.Slices ![0, 128] S128x128
  inb_S128x4096_S128x128_0_256 : ∀ a, (![0, 256] : Fin 2 → Nat) a + S128x128.size a ≤ S128x4096.size a
  slices_S128x4096_o0_256_S128x128 : S128x4096.Slices ![0, 256] S128x128
  inb_S128x4096_S128x128_0_384 : ∀ a, (![0, 384] : Fin 2 → Nat) a + S128x128.size a ≤ S128x4096.size a
  slices_S128x4096_o0_384_S128x128 : S128x4096.Slices ![0, 384] S128x128
  inb_S128x4096_S128x128_0_512 : ∀ a, (![0, 512] : Fin 2 → Nat) a + S128x128.size a ≤ S128x4096.size a
  slices_S128x4096_o0_512_S128x128 : S128x4096.Slices ![0, 512] S128x128
  inb_S128x4096_S128x128_0_640 : ∀ a, (![0, 640] : Fin 2 → Nat) a + S128x128.size a ≤ S128x4096.size a
  slices_S128x4096_o0_640_S128x128 : S128x4096.Slices ![0, 640] S128x128
  inb_S128x4096_S128x128_0_768 : ∀ a, (![0, 768] : Fin 2 → Nat) a + S128x128.size a ≤ S128x4096.size a
  slices_S128x4096_o0_768_S128x128 : S128x4096.Slices ![0, 768] S128x128
  inb_S128x4096_S128x128_0_896 : ∀ a, (![0, 896] : Fin 2 → Nat) a + S128x128.size a ≤ S128x4096.size a
  slices_S128x4096_o0_896_S128x128 : S128x4096.Slices ![0, 896] S128x128
  inb_S128x4096_S128x128_0_1024 : ∀ a, (![0, 1024] : Fin 2 → Nat) a + S128x128.size a ≤ S128x4096.size a
  slices_S128x4096_o0_1024_S128x128 : S128x4096.Slices ![0, 1024] S128x128
  inb_S128x4096_S128x128_0_1152 : ∀ a, (![0, 1152] : Fin 2 → Nat) a + S128x128.size a ≤ S128x4096.size a
  slices_S128x4096_o0_1152_S128x128 : S128x4096.Slices ![0, 1152] S128x128
  inb_S128x4096_S128x128_0_1280 : ∀ a, (![0, 1280] : Fin 2 → Nat) a + S128x128.size a ≤ S128x4096.size a
  slices_S128x4096_o0_1280_S128x128 : S128x4096.Slices ![0, 1280] S128x128
  inb_S128x4096_S128x128_0_1408 : ∀ a, (![0, 1408] : Fin 2 → Nat) a + S128x128.size a ≤ S128x4096.size a
  slices_S128x4096_o0_1408_S128x128 : S128x4096.Slices ![0, 1408] S128x128
  inb_S128x4096_S128x128_0_1536 : ∀ a, (![0, 1536] : Fin 2 → Nat) a + S128x128.size a ≤ S128x4096.size a
  slices_S128x4096_o0_1536_S128x128 : S128x4096.Slices ![0, 1536] S128x128
  inb_S128x4096_S128x128_0_1664 : ∀ a, (![0, 1664] : Fin 2 → Nat) a + S128x128.size a ≤ S128x4096.size a
  slices_S128x4096_o0_1664_S128x128 : S128x4096.Slices ![0, 1664] S128x128
  inb_S128x4096_S128x128_0_1792 : ∀ a, (![0, 1792] : Fin 2 → Nat) a + S128x128.size a ≤ S128x4096.size a
  slices_S128x4096_o0_1792_S128x128 : S128x4096.Slices ![0, 1792] S128x128
  inb_S128x4096_S128x128_0_1920 : ∀ a, (![0, 1920] : Fin 2 → Nat) a + S128x128.size a ≤ S128x4096.size a
  slices_S128x4096_o0_1920_S128x128 : S128x4096.Slices ![0, 1920] S128x128
  inb_S128x4096_S128x128_0_2048 : ∀ a, (![0, 2048] : Fin 2 → Nat) a + S128x128.size a ≤ S128x4096.size a
  slices_S128x4096_o0_2048_S128x128 : S128x4096.Slices ![0, 2048] S128x128
  inb_S128x4096_S128x128_0_2176 : ∀ a, (![0, 2176] : Fin 2 → Nat) a + S128x128.size a ≤ S128x4096.size a
  slices_S128x4096_o0_2176_S128x128 : S128x4096.Slices ![0, 2176] S128x128
  inb_S128x4096_S128x128_0_2304 : ∀ a, (![0, 2304] : Fin 2 → Nat) a + S128x128.size a ≤ S128x4096.size a
  slices_S128x4096_o0_2304_S128x128 : S128x4096.Slices ![0, 2304] S128x128
  inb_S128x4096_S128x128_0_2432 : ∀ a, (![0, 2432] : Fin 2 → Nat) a + S128x128.size a ≤ S128x4096.size a
  slices_S128x4096_o0_2432_S128x128 : S128x4096.Slices ![0, 2432] S128x128
  inb_S128x4096_S128x128_0_2560 : ∀ a, (![0, 2560] : Fin 2 → Nat) a + S128x128.size a ≤ S128x4096.size a
  slices_S128x4096_o0_2560_S128x128 : S128x4096.Slices ![0, 2560] S128x128
  inb_S128x4096_S128x128_0_2688 : ∀ a, (![0, 2688] : Fin 2 → Nat) a + S128x128.size a ≤ S128x4096.size a
  slices_S128x4096_o0_2688_S128x128 : S128x4096.Slices ![0, 2688] S128x128
  inb_S128x4096_S128x128_0_2816 : ∀ a, (![0, 2816] : Fin 2 → Nat) a + S128x128.size a ≤ S128x4096.size a
  slices_S128x4096_o0_2816_S128x128 : S128x4096.Slices ![0, 2816] S128x128
  inb_S128x4096_S128x128_0_2944 : ∀ a, (![0, 2944] : Fin 2 → Nat) a + S128x128.size a ≤ S128x4096.size a
  slices_S128x4096_o0_2944_S128x128 : S128x4096.Slices ![0, 2944] S128x128
  inb_S128x4096_S128x128_0_3072 : ∀ a, (![0, 3072] : Fin 2 → Nat) a + S128x128.size a ≤ S128x4096.size a
  slices_S128x4096_o0_3072_S128x128 : S128x4096.Slices ![0, 3072] S128x128
  inb_S128x4096_S128x128_0_3200 : ∀ a, (![0, 3200] : Fin 2 → Nat) a + S128x128.size a ≤ S128x4096.size a
  slices_S128x4096_o0_3200_S128x128 : S128x4096.Slices ![0, 3200] S128x128
  inb_S128x4096_S128x128_0_3328 : ∀ a, (![0, 3328] : Fin 2 → Nat) a + S128x128.size a ≤ S128x4096.size a
  slices_S128x4096_o0_3328_S128x128 : S128x4096.Slices ![0, 3328] S128x128
  inb_S128x4096_S128x128_0_3456 : ∀ a, (![0, 3456] : Fin 2 → Nat) a + S128x128.size a ≤ S128x4096.size a
  slices_S128x4096_o0_3456_S128x128 : S128x4096.Slices ![0, 3456] S128x128
  inb_S128x4096_S128x128_0_3584 : ∀ a, (![0, 3584] : Fin 2 → Nat) a + S128x128.size a ≤ S128x4096.size a
  slices_S128x4096_o0_3584_S128x128 : S128x4096.Slices ![0, 3584] S128x128
  inb_S128x4096_S128x128_0_3712 : ∀ a, (![0, 3712] : Fin 2 → Nat) a + S128x128.size a ≤ S128x4096.size a
  slices_S128x4096_o0_3712_S128x128 : S128x4096.Slices ![0, 3712] S128x128
  inb_S128x4096_S128x128_0_3840 : ∀ a, (![0, 3840] : Fin 2 → Nat) a + S128x128.size a ≤ S128x4096.size a
  slices_S128x4096_o0_3840_S128x128 : S128x4096.Slices ![0, 3840] S128x128
  inb_S128x4096_S128x128_0_3968 : ∀ a, (![0, 3968] : Fin 2 → Nat) a + S128x128.size a ≤ S128x4096.size a
  shapeCasts_S512x4096_S512x32x128 : S512x4096.ShapeCasts S512x32x128
  dot_S128x128_S128x256_S128x256_1_0_0_1_n_n_wf : DotDims.WF S128x128 S128x256 S128x256 [1] [0] [0] [1] [] []
  dot_S128x256_S256x256_S128x256_1_0_0_1_n_n_wf : DotDims.WF S128x256 S256x256 S128x256 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x128.size a
  hwx0_0 : ∀ i : grid0.Coords, EltTy.bits .f32 = 32 ∨ (Rect.block (s := S512x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S512x4096.size a
  hwx0_1 : ∀ i : grid0.Coords, EltTy.bits .f32 = 32 ∨ (Rect.block (s := S512x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S512x4096.size a
  hwx0_8 : ∀ i : grid0.Coords, EltTy.bits .f32 = 32 ∨ (Rect.block (s := S512x4096) S128x4096.size (cc0_transform_8 i) (hinb0_8 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_v1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S512x1x128 : Shape := ⟨3, ![512, 1, 128]⟩
abbrev S512x128 : Shape := ⟨2, ![512, 128]⟩
abbrev S512x4096 : Shape := ⟨2, ![512, 4096]⟩
abbrev S512x256 : Shape := ⟨2, ![512, 256]⟩

abbrev nBuf : Space → Nat
  | .hbm => 13
  | .vmem => 9
  | .smem => 0
  | _ => 0

abbrev bufTy : (tb : Table) → Fin (tcTables nBuf tb) → BufTy
  | .hbm, ⟨0, _⟩ => ⟨S512x33x128, .f32⟩
  | .hbm, ⟨1, _⟩ => ⟨S128x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S512x32x128, .f32⟩
  | .hbm, ⟨8, _⟩ => ⟨S512x1x128, .f32⟩
  | .hbm, ⟨9, _⟩ => ⟨S512x128, .f32⟩
  | .hbm, ⟨10, _⟩ => ⟨S512x4096, .f32⟩
  | .hbm, ⟨11, _⟩ => ⟨S512x4096, .f32⟩
  | .hbm, ⟨12, _⟩ => ⟨S512x32x128, .f32⟩
  | .local _ .vmem, ⟨0, _⟩ => ⟨S512x128, .f32⟩
  | .local _ .vmem, ⟨1, _⟩ => ⟨S512x4096, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S512x4096, .f32⟩
  | _, _ => ⟨S512x33x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S512x33x128_S512x1x128_0_0_0 : S512x33x128.Slices ![0, 0, 0] S512x1x128
  shapeCasts_S512x1x128_S512x128 : S512x1x128.ShapeCasts S512x128
  shapeCasts_S512x32x128_S512x4096 : S512x32x128.ShapeCasts S512x4096
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x4096_o0_0_S512x128 : S512x4096.Slices ![0, 0] S512x128
  slices_S512x4096_o0_128_S512x128 : S512x4096.Slices ![0, 128] S512x128
  slices_S512x4096_o0_256_S512x128 : S512x4096.Slices ![0, 256] S512x128
  slices_S512x4096_o0_384_S512x128 : S512x4096.Slices ![0, 384] S512x128
  slices_S512x4096_o0_512_S512x128 : S512x4096.Slices ![0, 512] S512x128
  slices_S512x4096_o0_640_S512x128 : S512x4096.Slices ![0, 640] S512x128
  slices_S512x4096_o0_768_S512x128 : S512x4096.Slices ![0, 768] S512x128
  slices_S512x4096_o0_896_S512x128 : S512x4096.Slices ![0, 896] S512x128
  slices_S512x4096_o0_1024_S512x128 : S512x4096.Slices ![0, 1024] S512x128
  slices_S512x4096_o0_1152_S512x128 : S512x4096.Slices ![0, 1152] S512x128
  slices_S512x4096_o0_1280_S512x128 : S512x4096.Slices ![0, 1280] S512x128
  slices_S512x4096_o0_1408_S512x128 : S512x4096.Slices ![0, 1408] S512x128
  slices_S512x4096_o0_1536_S512x128 : S512x4096.Slices ![0, 1536] S512x128
  slices_S512x4096_o0_1664_S512x128 : S512x4096.Slices ![0, 1664] S512x128
  slices_S512x4096_o0_1792_S512x128 : S512x4096.Slices ![0, 1792] S512x128
  slices_S512x4096_o0_1920_S512x128 : S512x4096.Slices ![0, 1920] S512x128
  slices_S512x4096_o0_2048_S512x128 : S512x4096.Slices ![0, 2048] S512x128
  slices_S512x4096_o0_2176_S512x128 : S512x4096.Slices ![0, 2176] S512x128
  slices_S512x4096_o0_2304_S512x128 : S512x4096.Slices ![0, 2304] S512x128
  slices_S512x4096_o0_2432_S512x128 : S512x4096.Slices ![0, 2432] S512x128
  slices_S512x4096_o0_2560_S512x128 : S512x4096.Slices ![0, 2560] S512x128
  slices_S512x4096_o0_2688_S512x128 : S512x4096.Slices ![0, 2688] S512x128
  slices_S512x4096_o0_2816_S512x128 : S512x4096.Slices ![0, 2816] S512x128
  slices_S512x4096_o0_2944_S512x128 : S512x4096.Slices ![0, 2944] S512x128
  slices_S512x4096_o0_3072_S512x128 : S512x4096.Slices ![0, 3072] S512x128
  slices_S512x4096_o0_3200_S512x128 : S512x4096.Slices ![0, 3200] S512x128
  slices_S512x4096_o0_3328_S512x128 : S512x4096.Slices ![0, 3328] S512x128
  slices_S512x4096_o0_3456_S512x128 : S512x4096.Slices ![0, 3456] S512x128
  slices_S512x4096_o0_3584_S512x128 : S512x4096.Slices ![0, 3584] S512x128
  slices_S512x4096_o0_3712_S512x128 : S512x4096.Slices ![0, 3712] S512x128
  slices_S512x4096_o0_3840_S512x128 : S512x4096.Slices ![0, 3840] S512x128
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x4096 1
  shapeCasts_S512x4096_S512x32x128 : S512x4096.ShapeCasts S512x32x128
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x4096.size a ≤ S512x4096.size a
  hwx0_8 : ∀ i : grid0.Coords, EltTy.bits .f32 = 32 ∨ (Rect.block (s := S512x4096) S512x4096.size (cc0_transform_8 i) (hinb0_8 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x4096.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Spec.lean ====
/-
  One row of the rollout, as mathematics on the extended reals, and a family of rows as a rank-2 vector.

  A row of the state is a function `Fin 128 → EReal`.  One step applies a three-layer network to the row
  (product with a weight matrix, a bias, a maximum with zero; twice; then a product and a bias), records that
  prediction, and moves the row on by the prediction plus that step's columns of the scaled noise row.  Every
  operation below acts on ONE row; a kernel that handles many rows at once applies it to each row separately,
  which is why a block of rows and the whole batch compute the same thing row by row.
-/
import Idealize.ShloMosaic.PureOps.Ideal
import Idealize.ShloMosaic.PureOps.Ideal.Laws
import Idealize.ShloMosaic.Lib.ValueIdx
import Idealize.ShloMosaic.Lib.Pipeline.Value

noncomputable section

namespace Cert.Rollout

open Idealize.ShloMosaic Idealize.ShloMosaic.ValueIdx
open scoped BigOperators

/-! ## Operations on one row -/

section Row
variable {K C C' : ℕ}

/-- The row times a weight matrix: entry `j` is the sum over `k` of `a k · w[k, j]`. -/
def vmm (w : FVec Ideal ⟨2, ![K, C]⟩ .f32) (a : Fin K → EReal) : Fin C → EReal :=
  fun j => ∑ k : Fin K, a k * w (ix2 k j)

/-- Entrywise sum of two rows. -/
def vadd (a b : Fin C → EReal) : Fin C → EReal := fun j => a j + b j

/-- Entrywise maximum with the float zero. -/
def vrelu (a : Fin C → EReal) : Fin C → EReal := fun j => max (a j) (Scalar.ofBits (F := Ideal) .f32 0x00000000#32)

/-- A bias, stored as a one-row matrix, as a row. -/
def vbias (b : FVec Ideal ⟨2, ![1, C]⟩ .f32) : Fin C → EReal := fun j => b (ix2 0 j)

/-- Entry `c` of a row, zero past its end. -/
def colAt (n : Fin C' → EReal) (c : ℕ) : EReal := if h : c < C' then n ⟨c, h⟩ else 0

/-- The `C` entries of a longer row that start at column `o`. -/
def vcols (o : ℕ) (n : Fin C' → EReal) : Fin C → EReal := fun q => colAt n (o + q.val)

/-- Every entry times a scalar. -/
def vscale (σ : EReal) (n : Fin C → EReal) : Fin C → EReal := fun j => n j * σ

end Row

/-! ## The rollout of one row -/

section Net

variable (w1 : FVec Ideal ⟨2, ![128, 256]⟩ .f32) (b1 : FVec Ideal ⟨2, ![1, 256]⟩ .f32)
  (w2 : FVec Ideal ⟨2, ![256, 256]⟩ .f32) (b2 : FVec Ideal ⟨2, ![1, 256]⟩ .f32)
  (w3 : FVec Ideal ⟨2, ![256, 128]⟩ .f32) (b3 : FVec Ideal ⟨2, ![1, 128]⟩ .f32)

/-- The first layer's product, then with its bias, then after the maximum with zero; the same for the second layer; the
    third layer's product; and the network's prediction, the third product plus its bias — each from a state row `a`. -/
def lm1 (a : Fin 128 → EReal) : Fin 256 → EReal := vmm w1 a
def lh1 (a : Fin 128 → EReal) : Fin 256 → EReal := vadd (lm1 w1 a) (vbias b1)
def la1 (a : Fin 128 → EReal) : Fin 256 → EReal := vrelu (lh1 w1 b1 a)
def lm2 (a : Fin 128 → EReal) : Fin 256 → EReal := vmm w2 (la1 w1 b1 a)
def lh2 (a : Fin 128 → EReal) : Fin 256 → EReal := vadd (lm2 w1 b1 w2 a) (vbias b2)
def la2 (a : Fin 128 → EReal) : Fin 256 → EReal := vrelu (lh2 w1 b1 w2 b2 a)
def lm3 (a : Fin 128 → EReal) : Fin 128 → EReal := vmm w3 (la2 w1 b1 w2 b2 a)
def net (a : Fin 128 → EReal) : Fin 128 → EReal := vadd (lm3 w1 b1 w2 b2 w3 a) (vbias b3)

/-- The noise scale, the float literal both programs multiply the noise by. -/
def sigma : EReal := Scalar.ofBits (F := Ideal) .f32 0x3C23D70A#32

/-- The state row after `s` steps, from the first row `x` and the noise row `n` (all steps' columns side by side). -/
def st (x : Fin 128 → EReal) (n : Fin 4096 → EReal) : ℕ → Fin 128 → EReal
  | 0 => x
  | s + 1 => vadd (vadd (st x n s) (net w1 b1 w2 b2 w3 b3 (st x n s))) (vcols (128 * s) (vscale sigma n))

/-- Step `s`'s prediction: the network at the state after `s` steps. -/
def pd (x : Fin 128 → EReal) (n : Fin 4096 → EReal) (s : ℕ) : Fin 128 → EReal :=
  net w1 b1 w2 b2 w3 b3 (st w1 b1 w2 b2 w3 b3 x n s)

theorem st_succ (x : Fin 128 → EReal) (n : Fin 4096 → EReal) (s : ℕ) :
    st w1 b1 w2 b2 w3 b3 x n (s + 1)
      = vadd (vadd (st w1 b1 w2 b2 w3 b3 x n s) (pd w1 b1 w2 b2 w3 b3 x n s)) (vcols (128 * s) (vscale sigma n)) := rfl

end Net

/-! ## Families of rows as rank-2 vectors -/

section Rows
variable {R K C C' : ℕ}

/-- `R` rows of length `C` as an `R × C` vector. -/
def rows (X : Fin R → Fin C → EReal) : FVec Ideal ⟨2, ![R, C]⟩ .f32 := fun i => X (i 0) (i 1)

theorem rows_ix2 (X : Fin R → Fin C → EReal) (p : Fin R) (j : Fin C) : rows X (ix2 p j) = X p j := rfl

/-- Row `p` of an `R × C` vector. -/
def rowOf (v : FVec Ideal ⟨2, ![R, C]⟩ .f32) (p : Fin R) : Fin C → EReal := fun j => v (ix2 p j)

/-- Every vector is the family of its rows. -/
theorem eq_rows (v : FVec Ideal ⟨2, ![R, C]⟩ .f32) : v = rows (rowOf v) := by
  funext i
  conv_lhs => rw [eq_ix2 i]
  rfl

theorem addf_rows (a b : Fin R → Fin C → EReal) :
    addf (rows a) (rows b) = rows (fun p => vadd (a p) (b p)) := rfl

theorem maximumf_rows_zero (a : Fin R → Fin C → EReal) :
    maximumf (rows a) (broadcast ⟨2, ![R, C]⟩ (Scalar.ofBits (F := Ideal) .f32 0x00000000#32))
      = rows (fun p => vrelu (a p)) := rfl

theorem mulf_rows_scalar (a : Fin R → Fin C → EReal) (σ : EReal) :
    mulf (rows a) (broadcast ⟨2, ![R, C]⟩ σ) = rows (fun p => vscale σ (a p)) := rfl

/-- A one-row matrix broadcast down `R` rows: every row is that row. -/
theorem broadcastTo_rows (b : FVec Ideal ⟨2, ![1, C]⟩ .f32)
    (h : (⟨2, ![1, C]⟩ : Shape).Broadcasts ⟨2, ![R, C]⟩) :
    broadcastTo ⟨2, ![R, C]⟩ b h = rows (fun _ : Fin R => vbias b) := by
  funext i
  obtain ⟨p, j, rfl⟩ : ∃ (p : Fin R) (j : Fin C), i = ix2 p j := ⟨i 0, i 1, eq_ix2 i⟩
  refine (broadcastTo_apply b h (ix2 p j) (ix2 0 j) ?_).trans rfl
  intro a
  match a with
  | ⟨0, _⟩ => simp
  | ⟨1, _⟩ =>
    by_cases hC : C = 1
    · subst hC; simp
    · simp [hC]

/-- Columns `o … o + C` of every row. -/
theorem slice_rows (o : ℕ) (n : Fin R → Fin C' → EReal)
    (h : (⟨2, ![R, C']⟩ : Shape).Slices ![0, o] ⟨2, ![R, C]⟩) :
    extractStridedSlice ⟨2, ![R, C]⟩ ![0, o] (rows n) h = rows (fun p => vcols o (n p)) := by
  funext i
  obtain ⟨p, q, rfl⟩ : ∃ (p : Fin R) (q : Fin C), i = ix2 p q := ⟨i 0, i 1, eq_ix2 i⟩
  have hq : o + q.val < C' := by
    have := h.2 1
    simp at this
    omega
  refine (extractStridedSlice_apply ![0, o] (rows n) h (ix2 p q) (ix2 p ⟨o + q.val, hq⟩) ?_).trans ?_
  · intro a
    match a with
    | ⟨0, _⟩ => simp
    | ⟨1, _⟩ => simp
  · show n p ⟨o + q.val, hq⟩ = colAt (n p) (o + q.val)
    unfold colAt
    rw [dif_pos hq]

/-- A matrix product into the zero accumulator, whose left operand is a family of rows, is row by row the row times the
    matrix: the product's row `p` reads only row `p` of the left operand.  The four hypotheses spell the dot's
    dimension numbers: it contracts the left operand's columns with the right operand's rows. -/
theorem matmul_rows (d : DotDims ⟨2, ![R, K]⟩ ⟨2, ![K, C]⟩ ⟨2, ![R, C]⟩)
    (hr : d.contr.rank = 1) (hs : d.contr.size ⟨0, by omega⟩ = K)
    (hl0 : ∀ (j : (⟨2, ![R, C]⟩ : Shape).Idx) (k : d.contr.Idx), (d.lhsIdx j k 0 : ℕ) = j 0)
    (hl1 : ∀ (j : (⟨2, ![R, C]⟩ : Shape).Idx) (k : d.contr.Idx), (d.lhsIdx j k 1 : ℕ) = k ⟨0, by omega⟩)
    (hr0 : ∀ (j : (⟨2, ![R, C]⟩ : Shape).Idx) (k : d.contr.Idx), (d.rhsIdx j k 0 : ℕ) = k ⟨0, by omega⟩)
    (hr1 : ∀ (j : (⟨2, ![R, C]⟩ : Shape).Idx) (k : d.contr.Idx), (d.rhsIdx j k 1 : ℕ) = j 1)
    (a : Fin R → Fin K → EReal) (w : FVec Ideal ⟨2, ![K, C]⟩ .f32) :
    matmul d none (rows a) w (constant ⟨2, ![R, C]⟩ .f32 0x00000000#32) = rows (fun p => vmm w (a p)) := by
  funext i
  obtain ⟨p, j, rfl⟩ : ∃ (p : Fin R) (j : Fin C), i = ix2 p j := ⟨i 0, i 1, eq_ix2 i⟩
  refine (Ideal.matmul_constant_zero_apply d none (rows a) w (ix2 p j)).trans ?_
  show _ = ∑ k : Fin K, a p k * w (ix2 k j)
  rw [← Equiv.sum_comp (contrEquiv1 d K hr hs).symm]
  refine Finset.sum_congr rfl fun k _ => ?_
  have e0 : d.lhsIdx (ix2 p j) ((contrEquiv1 d K hr hs).symm k) = ix2 p k :=
    Shape.idx_ext₂ (hl0 _ _) ((hl1 _ _).trans (contrEquiv1_symm_val d K hr hs k))
  have e1 : d.rhsIdx (ix2 p j) ((contrEquiv1 d K hr hs).symm k) = ix2 k j :=
    Shape.idx_ext₂ ((hr0 _ _).trans (contrEquiv1_symm_val d K hr hs k)) (hr1 _ _)
  rw [e0, e1]
  rfl

end Rows

end Cert.Rollout

end
-- ==== Proof.KOps.lean ====
/-
  The three matrix products of the network, in the 128-row block this program's body works on, read row by row: each contracts the left
  operand's columns with the right operand's rows, so row `p` of the product is row `p` of the left operand times
  the weight matrix.
-/
import proofs.«167317_g2000209494350815_pallasbulk_913_1_alg».proof.Proof.Gen.KernelIdeal
import proofs.«167317_g2000209494350815_pallasbulk_913_1_alg».proof.Proof.Spec

noncomputable section

namespace Cert.KernelIdeal.Roll

open Idealize.ShloMosaic Idealize.ShloMosaic.ValueIdx Cert.KernelIdeal Cert.Rollout

/-! ### The dimension numbers of the three products, coordinate by coordinate -/

theorem d1_l0 (j : S128x256.Idx) (k : dot_S128x128_S128x256_S128x256_1_0_0_1_n_n.contr.Idx) :
    (dot_S128x128_S128x256_S128x256_1_0_0_1_n_n.lhsIdx j k 0 : ℕ) = j 0 := by
  simp [DotDims.lhsIdx, dot_S128x128_S128x256_S128x256_1_0_0_1_n_n]; rfl
theorem d1_l1 (j : S128x256.Idx) (k : dot_S128x128_S128x256_S128x256_1_0_0_1_n_n.contr.Idx) :
    (dot_S128x128_S128x256_S128x256_1_0_0_1_n_n.lhsIdx j k 1 : ℕ) = k ⟨0, by decide⟩ := by
  simp [DotDims.lhsIdx, dot_S128x128_S128x256_S128x256_1_0_0_1_n_n]; rfl
theorem d1_r0 (j : S128x256.Idx) (k : dot_S128x128_S128x256_S128x256_1_0_0_1_n_n.contr.Idx) :
    (dot_S128x128_S128x256_S128x256_1_0_0_1_n_n.rhsIdx j k 0 : ℕ) = k ⟨0, by decide⟩ := by
  simp [DotDims.rhsIdx, dot_S128x128_S128x256_S128x256_1_0_0_1_n_n]; rfl
theorem d1_r1 (j : S128x256.Idx) (k : dot_S128x128_S128x256_S128x256_1_0_0_1_n_n.contr.Idx) :
    (dot_S128x128_S128x256_S128x256_1_0_0_1_n_n.rhsIdx j k 1 : ℕ) = j 1 := by
  simp [DotDims.rhsIdx, dot_S128x128_S128x256_S128x256_1_0_0_1_n_n]; rfl

theorem d2_l0 (j : S128x256.Idx) (k : dot_S128x256_S256x256_S128x256_1_0_0_1_n_n.contr.Idx) :
    (dot_S128x256_S256x256_S128x256_1_0_0_1_n_n.lhsIdx j k 0 : ℕ) = j 0 := by
  simp [DotDims.lhsIdx, dot_S128x256_S256x256_S128x256_1_0_0_1_n_n]; rfl
theorem d2_l1 (j : S128x256.Idx) (k : dot_S128x256_S256x256_S128x256_1_0_0_1_n_n.contr.Idx) :
    (dot_S128x256_S256x256_S128x256_1_0_0_1_n_n.lhsIdx j k 1 : ℕ) = k ⟨0, by decide⟩ := by
  simp [DotDims.lhsIdx, dot_S128x256_S256x256_S128x256_1_0_0_1_n_n]; rfl
theorem d2_r0 (j : S128x256.Idx) (k : dot_S128x256_S256x256_S128x256_1_0_0_1_n_n.contr.Idx) :
    (dot_S128x256_S256x256_S128x256_1_0_0_1_n_n.rhsIdx j k 0 : ℕ) = k ⟨0, by decide⟩ := by
  simp [DotDims.rhsIdx, dot_S128x256_S256x256_S128x256_1_0_0_1_n_n]; rfl
theorem d2_r1 (j : S128x256.Idx) (k : dot_S128x256_S256x256_S128x256_1_0_0_1_n_n.contr.Idx) :
    (dot_S128x256_S256x256_S128x256_1_0_0_1_n_n.rhsIdx j k 1 : ℕ) = j 1 := by
  simp [DotDims.rhsIdx, dot_S128x256_S256x256_S128x256_1_0_0_1_n_n]; rfl

theorem d3_l0 (j : S128x128.Idx) (k : dot_S128x256_S256x128_S128x128_1_0_0_1_n_n.contr.Idx) :
    (dot_S128x256_S256x128_S128x128_1_0_0_1_n_n.lhsIdx j k 0 : ℕ) = j 0 := by
  simp [DotDims.lhsIdx, dot_S128x256_S256x128_S128x128_1_0_0_1_n_n]; rfl
theorem d3_l1 (j : S128x128.Idx) (k : dot_S128x256_S256x128_S128x128_1_0_0_1_n_n.contr.Idx) :
    (dot_S128x256_S256x128_S128x128_1_0_0_1_n_n.lhsIdx j k 1 : ℕ) = k ⟨0, by decide⟩ := by
  simp [DotDims.lhsIdx, dot_S128x256_S256x128_S128x128_1_0_0_1_n_n]; rfl
theorem d3_r0 (j : S128x128.Idx) (k : dot_S128x256_S256x128_S128x128_1_0_0_1_n_n.contr.Idx) :
    (dot_S128x256_S256x128_S128x128_1_0_0_1_n_n.rhsIdx j k 0 : ℕ) = k ⟨0, by decide⟩ := by
  simp [DotDims.rhsIdx, dot_S128x256_S256x128_S128x128_1_0_0_1_n_n]; rfl
theorem d3_r1 (j : S128x128.Idx) (k : dot_S128x256_S256x128_S128x128_1_0_0_1_n_n.contr.Idx) :
    (dot_S128x256_S256x128_S128x128_1_0_0_1_n_n.rhsIdx j k 1 : ℕ) = j 1 := by
  simp [DotDims.rhsIdx, dot_S128x256_S256x128_S128x128_1_0_0_1_n_n]; rfl

/-! ### The products, row by row -/

/-- The first layer's product: rows of length 128 times the 128 × 256 weights. -/
theorem mm1 (a : Fin 128 → Fin 128 → EReal) (w : FVec Ideal S128x256 .f32) :
    matmul dot_S128x128_S128x256_S128x256_1_0_0_1_n_n none (rows a) w (constant S128x256 .f32 0x00000000#32)
      = rows (fun p => vmm w (a p)) :=
  matmul_rows dot_S128x128_S128x256_S128x256_1_0_0_1_n_n rfl rfl d1_l0 d1_l1 d1_r0 d1_r1 a w

/-- The second layer's product: rows of length 256 times the 256 × 256 weights. -/
theorem mm2 (a : Fin 128 → Fin 256 → EReal) (w : FVec Ideal S256x256 .f32) :
    matmul dot_S128x256_S256x256_S128x256_1_0_0_1_n_n none (rows a) w (constant S128x256 .f32 0x00000000#32)
      = rows (fun p => vmm w (a p)) :=
  matmul_rows dot_S128x256_S256x256_S128x256_1_0_0_1_n_n rfl rfl d2_l0 d2_l1 d2_r0 d2_r1 a w

/-- The third layer's product: rows of length 256 times the 256 × 128 weights. -/
theorem mm3 (a : Fin 128 → Fin 256 → EReal) (w : FVec Ideal S256x128 .f32) :
    matmul dot_S128x256_S256x128_S128x128_1_0_0_1_n_n none (rows a) w (constant S128x128 .f32 0x00000000#32)
      = rows (fun p => vmm w (a p)) :=
  matmul_rows dot_S128x256_S256x128_S128x128_1_0_0_1_n_n rfl rfl d3_l0 d3_l1 d3_r0 d3_r1 a w

end Cert.KernelIdeal.Roll

end
-- ==== Proof.Attr.lean ====
/-
  Two rewrite sets: the values the two programs' bodies compute, one lemma per named value.
-/
import Lean

/-- What each named value of the blocked program's body is, as a family of rollout rows. -/
register_simp_attr rollK

/-- What each named value of the whole-batch program's body is, as a family of rollout rows. -/
register_simp_attr rollR
-- ==== Proof.KPay.lean ====
/-
  What each named value of the blocked program's body is.

  The body unrolls 32 steps over a block of 128 rows.  Its named values come from cutting that long body at fixed
  statement counts, so a value may be a state, a prediction, or a stage in the middle of the network, and may start
  from values carried over the previous cut.  Each lemma below says which stage of which step a named value is, as a
  family of 128 rollout rows, given that the carried values it starts from are the stages they should be.  Every proof
  is the same: open the value, read each operation row by row (a product reads only its own row of the left
  operand; sums, maxima, broadcast biases and column slices act inside a row), and compare with the rollout's
  definition.
-/
import proofs.«167317_g2000209494350815_pallasbulk_913_1_alg».proof.Proof.Gen.KernelIdeal.Skeleton
import proofs.«167317_g2000209494350815_pallasbulk_913_1_alg».proof.Proof.KOps
import proofs.«167317_g2000209494350815_pallasbulk_913_1_alg».proof.Proof.Attr

noncomputable section

namespace Cert.KernelIdeal.Roll

open Idealize.ShloMosaic Idealize.ShloMosaic.ValueIdx Cert.KernelIdeal Cert.KernelIdeal.Gen Cert.Rollout

variable (v0 : Vec Ideal S128x256 .f32) (v1 : Vec Ideal S256x256 .f32) (v2 : Vec Ideal S256x128 .f32)
  (v3 : Vec Ideal S1x256 .f32) (v6 : Vec Ideal S1x256 .f32) (v9 : Vec Ideal S1x128 .f32)
  (v12 : Vec Ideal S128x4096 .f32) (v16 : Vec Ideal S128x128 .f32)

/-! Row `p` of the block after `s` steps, the named stages of the network at that state, the three biases as
    families of equal rows, and the scaled noise rows. -/
local notation "𝐒" s:max => rows (fun p => st v0 v3 v1 v6 v2 v9 (rowOf v16 p) (rowOf v12 p) s)
local notation "𝐏" s:max => rows (fun p => pd v0 v3 v1 v6 v2 v9 (rowOf v16 p) (rowOf v12 p) s)
local notation "𝐒𝐏" s:max => rows (fun p => vadd (st v0 v3 v1 v6 v2 v9 (rowOf v16 p) (rowOf v12 p) s) (pd v0 v3 v1 v6 v2 v9 (rowOf v16 p) (rowOf v12 p) s))
local notation "𝐌₁" s:max => rows (fun p => lm1 v0 (st v0 v3 v1 v6 v2 v9 (rowOf v16 p) (rowOf v12 p) s))
local notation "𝐇₁" s:max => rows (fun p => lh1 v0 v3 (st v0 v3 v1 v6 v2 v9 (rowOf v16 p) (rowOf v12 p) s))
local notation "𝐀₁" s:max => rows (fun p => la1 v0 v3 (st v0 v3 v1 v6 v2 v9 (rowOf v16 p) (rowOf v12 p) s))
local notation "𝐌₂" s:max => rows (fun p => lm2 v0 v3 v1 (st v0 v3 v1 v6 v2 v9 (rowOf v16 p) (rowOf v12 p) s))
local notation "𝐇₂" s:max => rows (fun p => lh2 v0 v3 v1 v6 (st v0 v3 v1 v6 v2 v9 (rowOf v16 p) (rowOf v12 p) s))
local notation "𝐀₂" s:max => rows (fun p => la2 v0 v3 v1 v6 (st v0 v3 v1 v6 v2 v9 (rowOf v16 p) (rowOf v12 p) s))
local notation "𝐌₃" s:max => rows (fun p => lm3 v0 v3 v1 v6 v2 (st v0 v3 v1 v6 v2 v9 (rowOf v16 p) (rowOf v12 p) s))
local notation "𝐁₁" => rows (fun _ : Fin 128 => vbias v3)
local notation "𝐁₂" => rows (fun _ : Fin 128 => vbias v6)
local notation "𝐁₃" => rows (fun _ : Fin 128 => vbias v9)
local notation "𝐍" => rows (fun p : Fin 128 => vscale sigma (rowOf v12 p))
local notation "𝐳" => Scalar.ofBits (F := Ideal) FTy.f32 0x00000000#32

/-- Open the named value, read every operation row by row, and compare with the rollout's definition. -/
local macro "roll_val" "[" ts:Lean.Parser.Tactic.simpLemma,* "]" : tactic =>
  `(tactic| (simp only [$ts,*, rollK, shapeCast_self, addf_rows, maximumf_rows_zero, slice_rows, mm1, mm2, mm3]; first | done | rfl))

/-! ### The values every step shares: the biases down the block's rows, the scaled noise, the first state -/

@[rollK] theorem p2 : k0_pay2 v3 = 𝐁₁ := by
  simp only [k0_pay2, shapeCast_self]; exact broadcastTo_rows v3 _
@[rollK] theorem p3 : k0_pay3 v6 = 𝐁₂ := by
  simp only [k0_pay3, shapeCast_self]; exact broadcastTo_rows v6 _
@[rollK] theorem p4 : k0_pay4 v9 = 𝐁₃ := by
  simp only [k0_pay4, shapeCast_self]; exact broadcastTo_rows v9 _
@[rollK] theorem p5 : k0_pay5 v12 = 𝐍 := by
  simp only [k0_pay5, shapeCast_self]
  exact (congrArg (fun v => mulf v (broadcast S128x4096 (Scalar.ofBits (F := Ideal) .f32 0x3C23D70A#32))) (eq_rows v12)).trans
    (mulf_rows_scalar (rowOf v12) sigma)
@[rollK] theorem p6 : k0_pay6 v16 = rows (rowOf v16) := by
  simp only [k0_pay6, shapeCast_self]; exact eq_rows v16

/-! ### Steps 0 to 31, in the order the body names its values -/

/-- Step 0's prediction needs no noise: it is the network at the block's first rows. -/
@[rollK] theorem p7 : k0_pay7 v0 v1 v2 v3 v6 v9 v16 = rows (fun p => net v0 v3 v1 v6 v2 v9 (rowOf v16 p)) := by roll_val [k0_pay7]
@[rollK] theorem p8 : k0_pay8 v0 v1 v2 v3 v6 v9 v12 v16 = 𝐒 1 := by roll_val [k0_pay8]
@[rollK] theorem p9 : k0_pay9 v0 v1 v2 v3 v6 v9 v12 v16 = 𝐌₁ 1 := by roll_val [k0_pay9]
@[rollK] theorem p10 : k0_pay10 v1 v2 𝐁₁ 𝐁₂ 𝐁₃ (𝐌₁ 1) = 𝐏 1 := by roll_val [k0_pay10]
@[rollK] theorem p11 : k0_pay11 v1 v2 𝐁₁ 𝐁₂ 𝐁₃ 𝐍 (𝐒 1) (𝐌₁ 1) = 𝐒 2 := by roll_val [k0_pay11]
@[rollK] theorem p12 : k0_pay12 v0 v1 v2 𝐁₁ 𝐁₂ 𝐁₃ 𝐍 (𝐒 1) (𝐌₁ 1) = 𝐏 2 := by roll_val [k0_pay12]
@[rollK] theorem p13 : k0_pay13 v0 v1 v2 𝐁₁ 𝐁₂ 𝐁₃ 𝐍 (𝐒 1) (𝐌₁ 1) = 𝐒 3 := by roll_val [k0_pay13]
@[rollK] theorem p14 : k0_pay14 v0 v1 v2 𝐁₁ 𝐁₂ 𝐁₃ 𝐍 (𝐒 1) (𝐌₁ 1) = 𝐏 3 := by roll_val [k0_pay14]
@[rollK] theorem p15 : k0_pay15 𝐍 (𝐒 3) (𝐏 3) = 𝐒 4 := by roll_val [k0_pay15]
@[rollK] theorem p16 : k0_pay16 v0 v1 v2 𝐁₁ 𝐁₂ 𝐁₃ 𝐍 (𝐒 3) (𝐏 3) = 𝐏 4 := by roll_val [k0_pay16]
@[rollK] theorem p17 : k0_pay17 v0 v1 v2 𝐁₁ 𝐁₂ 𝐁₃ 𝐍 (𝐒 3) (𝐏 3) = 𝐒 5 := by roll_val [k0_pay17]
@[rollK] theorem p18 : k0_pay18 v0 v1 v2 𝐁₁ 𝐁₂ 𝐁₃ 𝐍 (𝐒 3) (𝐏 3) = 𝐏 5 := by roll_val [k0_pay18]
@[rollK] theorem p19 : k0_pay19 v0 v1 v2 𝐁₁ 𝐁₂ 𝐁₃ 𝐍 (𝐒 3) (𝐏 3) = 𝐒 6 := by roll_val [k0_pay19]
@[rollK] theorem p20 : k0_pay20 v0 v1 v2 𝐁₁ 𝐁₂ 𝐁₃ 𝐍 (𝐒 3) (𝐏 3) = 𝐀₂ 6 := by roll_val [k0_pay20]
@[rollK] theorem p21 : k0_pay21 v2 𝐁₃ (𝐀₂ 6) = 𝐏 6 := by roll_val [k0_pay21]
@[rollK] theorem p22 : k0_pay22 v2 𝐁₃ 𝐍 (𝐒 6) (𝐀₂ 6) = 𝐒 7 := by roll_val [k0_pay22]
@[rollK] theorem p23 : k0_pay23 v0 v1 v2 𝐁₁ 𝐁₂ 𝐁₃ 𝐍 (𝐒 6) (𝐀₂ 6) = 𝐏 7 := by roll_val [k0_pay23]
@[rollK] theorem p24 : k0_pay24 v0 v1 v2 𝐁₁ 𝐁₂ 𝐁₃ 𝐍 (𝐒 6) (𝐀₂ 6) = 𝐒 8 := by roll_val [k0_pay24]
@[rollK] theorem p25 : k0_pay25 v0 v1 v2 𝐁₁ 𝐁₂ 𝐁₃ 𝐍 (𝐒 6) (𝐀₂ 6) = 𝐏 8 := by roll_val [k0_pay25]
@[rollK] theorem p26 : k0_pay26 v0 v1 v2 𝐁₁ 𝐁₂ 𝐁₃ 𝐍 (𝐒 6) (𝐀₂ 6) = 𝐒 9 := by roll_val [k0_pay26]
@[rollK] theorem p27 : k0_pay27 v0 v1 v2 𝐁₁ 𝐁₂ 𝐁₃ 𝐍 (𝐒 6) (𝐀₂ 6) = 𝐀₁ 9 := by roll_val [k0_pay27]
@[rollK] theorem p28 : k0_pay28 v1 v2 𝐁₂ 𝐁₃ (𝐀₁ 9) = 𝐏 9 := by roll_val [k0_pay28]
@[rollK] theorem p29 : k0_pay29 v1 v2 𝐁₂ 𝐁₃ 𝐍 (𝐒 9) (𝐀₁ 9) = 𝐒 10 := by roll_val [k0_pay29]
@[rollK] theorem p30 : k0_pay30 v0 v1 v2 𝐁₁ 𝐁₂ 𝐁₃ 𝐍 (𝐒 9) (𝐀₁ 9) = 𝐏 10 := by roll_val [k0_pay30]
@[rollK] theorem p31 : k0_pay31 v0 v1 v2 𝐁₁ 𝐁₂ 𝐁₃ 𝐍 (𝐒 9) (𝐀₁ 9) = 𝐒 11 := by roll_val [k0_pay31]
@[rollK] theorem p32 : k0_pay32 v0 v1 v2 𝐁₁ 𝐁₂ 𝐁₃ 𝐍 (𝐒 9) (𝐀₁ 9) = 𝐏 11 := by roll_val [k0_pay32]
@[rollK] theorem p33 : k0_pay33 v0 v1 v2 𝐁₁ 𝐁₂ 𝐁₃ 𝐍 (𝐒 9) (𝐀₁ 9) = 𝐒 12 := by roll_val [k0_pay33]
@[rollK] theorem p34 : k0_pay34 v0 v1 v2 𝐁₁ 𝐁₂ 𝐁₃ (𝐒 12) = 𝐏 12 := by roll_val [k0_pay34]
@[rollK] theorem p35 : k0_pay35 v0 v1 v2 𝐁₁ 𝐁₂ 𝐁₃ 𝐍 (𝐒 12) = 𝐒 13 := by roll_val [k0_pay35]
@[rollK] theorem p36 : k0_pay36 v0 v1 v2 𝐁₁ 𝐁₂ 𝐁₃ 𝐍 (𝐒 12) = 𝐏 13 := by roll_val [k0_pay36]
@[rollK] theorem p37 : k0_pay37 v0 v1 v2 𝐁₁ 𝐁₂ 𝐁₃ 𝐍 (𝐒 12) = 𝐒 14 := by roll_val [k0_pay37]
@[rollK] theorem p38 : k0_pay38 v0 v1 v2 𝐁₁ 𝐁₂ 𝐁₃ 𝐍 (𝐒 12) = 𝐏 14 := by roll_val [k0_pay38]
@[rollK] theorem p39 : k0_pay39 𝐍 (𝐒 14) (𝐏 14) = 𝐒 15 := by roll_val [k0_pay39]
@[rollK] theorem p40 : k0_pay40 v0 v1 v2 𝐁₁ 𝐁₂ 𝐁₃ 𝐍 (𝐒 14) (𝐏 14) = 𝐏 15 := by roll_val [k0_pay40]
@[rollK] theorem p41 : k0_pay41 v0 v1 v2 𝐁₁ 𝐁₂ 𝐁₃ 𝐍 (𝐒 14) (𝐏 14) = 𝐒 16 := by roll_val [k0_pay41]
@[rollK] theorem p42 : k0_pay42 v0 v1 v2 𝐁₁ 𝐁₂ 𝐁₃ 𝐍 (𝐒 14) (𝐏 14) = 𝐏 16 := by roll_val [k0_pay42]
@[rollK] theorem p43 : k0_pay43 v0 v1 v2 𝐁₁ 𝐁₂ 𝐁₃ 𝐍 (𝐒 14) (𝐏 14) = 𝐒 17 := by roll_val [k0_pay43]
@[rollK] theorem p44 : k0_pay44 v0 v1 v2 𝐁₁ 𝐁₂ 𝐁₃ 𝐍 (𝐒 14) (𝐏 14) = 𝐇₂ 17 := by roll_val [k0_pay44]
@[rollK] theorem p45 : k0_pay45 v2 𝐁₃ (𝐇₂ 17) 𝐳 = 𝐏 17 := by roll_val [k0_pay45]
@[rollK] theorem p46 : k0_pay46 v2 𝐁₃ 𝐍 (𝐒 17) (𝐇₂ 17) 𝐳 = 𝐒 18 := by roll_val [k0_pay46]
@[rollK] theorem p47 : k0_pay47 v0 v1 v2 𝐁₁ 𝐁₂ 𝐁₃ 𝐍 (𝐒 17) (𝐇₂ 17) 𝐳 = 𝐏 18 := by roll_val [k0_pay47]
@[rollK] theorem p48 : k0_pay48 v0 v1 v2 𝐁₁ 𝐁₂ 𝐁₃ 𝐍 (𝐒 17) (𝐇₂ 17) 𝐳 = 𝐒 19 := by roll_val [k0_pay48]
@[rollK] theorem p49 : k0_pay49 v0 v1 v2 𝐁₁ 𝐁₂ 𝐁₃ 𝐍 (𝐒 17) (𝐇₂ 17) 𝐳 = 𝐏 19 := by roll_val [k0_pay49]
@[rollK] theorem p50 : k0_pay50 v0 v1 v2 𝐁₁ 𝐁₂ 𝐁₃ 𝐍 (𝐒 17) (𝐇₂ 17) 𝐳 = 𝐒 20 := by roll_val [k0_pay50]
@[rollK] theorem p51 : k0_pay51 v0 v1 v2 𝐁₁ 𝐁₂ 𝐁₃ 𝐍 (𝐒 17) (𝐇₂ 17) 𝐳 = 𝐇₁ 20 := by roll_val [k0_pay51]
@[rollK] theorem p52 : k0_pay52 v1 v2 𝐁₂ 𝐁₃ (𝐇₁ 20) 𝐳 = 𝐏 20 := by roll_val [k0_pay52]
@[rollK] theorem p53 : k0_pay53 v1 v2 𝐁₂ 𝐁₃ 𝐍 (𝐒 20) (𝐇₁ 20) 𝐳 = 𝐒 21 := by roll_val [k0_pay53]
@[rollK] theorem p54 : k0_pay54 v0 v1 v2 𝐁₁ 𝐁₂ 𝐁₃ 𝐍 (𝐒 20) (𝐇₁ 20) 𝐳 = 𝐏 21 := by roll_val [k0_pay54]
@[rollK] theorem p55 : k0_pay55 v0 v1 v2 𝐁₁ 𝐁₂ 𝐁₃ 𝐍 (𝐒 20) (𝐇₁ 20) 𝐳 = 𝐒 22 := by roll_val [k0_pay55]
@[rollK] theorem p56 : k0_pay56 v0 v1 v2 𝐁₁ 𝐁₂ 𝐁₃ 𝐍 (𝐒 20) (𝐇₁ 20) 𝐳 = 𝐏 22 := by roll_val [k0_pay56]
@[rollK] theorem p57 : k0_pay57 v0 v1 v2 𝐁₁ 𝐁₂ 𝐁₃ 𝐍 (𝐒 20) (𝐇₁ 20) 𝐳 = 𝐒𝐏 22 := by roll_val [k0_pay57]
@[rollK] theorem p58 : k0_pay58 𝐍 (𝐒𝐏 22) = 𝐒 23 := by roll_val [k0_pay58]
@[rollK] theorem p59 : k0_pay59 v0 v1 v2 𝐁₁ 𝐁₂ 𝐁₃ 𝐍 (𝐒𝐏 22) = 𝐏 23 := by roll_val [k0_pay59]
@[rollK] theorem p60 : k0_pay60 v0 v1 v2 𝐁₁ 𝐁₂ 𝐁₃ 𝐍 (𝐒𝐏 22) = 𝐒 24 := by roll_val [k0_pay60]
@[rollK] theorem p61 : k0_pay61 v0 v1 v2 𝐁₁ 𝐁₂ 𝐁₃ 𝐍 (𝐒𝐏 22) = 𝐏 24 := by roll_val [k0_pay61]
@[rollK] theorem p62 : k0_pay62 v0 v1 v2 𝐁₁ 𝐁₂ 𝐁₃ 𝐍 (𝐒𝐏 22) = 𝐒 25 := by roll_val [k0_pay62]
@[rollK] theorem p63 : k0_pay63 v0 v1 v2 𝐁₁ 𝐁₂ 𝐁₃ 𝐍 (𝐒𝐏 22) = 𝐌₃ 25 := by roll_val [k0_pay63]
@[rollK] theorem p64 : k0_pay64 𝐁₃ (𝐌₃ 25) = 𝐏 25 := by roll_val [k0_pay64]
@[rollK] theorem p65 : k0_pay65 𝐁₃ 𝐍 (𝐒 25) (𝐌₃ 25) = 𝐒 26 := by roll_val [k0_pay65]
@[rollK] theorem p66 : k0_pay66 v0 v1 v2 𝐁₁ 𝐁₂ 𝐁₃ 𝐍 (𝐒 25) (𝐌₃ 25) = 𝐏 26 := by roll_val [k0_pay66]
@[rollK] theorem p67 : k0_pay67 v0 v1 v2 𝐁₁ 𝐁₂ 𝐁₃ 𝐍 (𝐒 25) (𝐌₃ 25) = 𝐒 27 := by roll_val [k0_pay67]
@[rollK] theorem p68 : k0_pay68 v0 v1 v2 𝐁₁ 𝐁₂ 𝐁₃ 𝐍 (𝐒 25) (𝐌₃ 25) = 𝐏 27 := by roll_val [k0_pay68]
@[rollK] theorem p69 : k0_pay69 v0 v1 v2 𝐁₁ 𝐁₂ 𝐁₃ 𝐍 (𝐒 25) (𝐌₃ 25) = 𝐒 28 := by roll_val [k0_pay69]
@[rollK] theorem p70 : k0_pay70 v0 v1 v2 𝐁₁ 𝐁₂ 𝐁₃ 𝐍 (𝐒 25) (𝐌₃ 25) = 𝐌₂ 28 := by roll_val [k0_pay70]
@[rollK] theorem p71 : k0_pay71 v2 𝐁₂ 𝐁₃ (𝐌₂ 28) = 𝐏 28 := by roll_val [k0_pay71]
@[rollK] theorem p72 : k0_pay72 v2 𝐁₂ 𝐁₃ 𝐍 (𝐒 28) (𝐌₂ 28) = 𝐒 29 := by roll_val [k0_pay72]
@[rollK] theorem p73 : k0_pay73 v0 v1 v2 𝐁₁ 𝐁₂ 𝐁₃ 𝐍 (𝐒 28) (𝐌₂ 28) = 𝐏 29 := by roll_val [k0_pay73]
@[rollK] theorem p74 : k0_pay74 v0 v1 v2 𝐁₁ 𝐁₂ 𝐁₃ 𝐍 (𝐒 28) (𝐌₂ 28) = 𝐒 30 := by roll_val [k0_pay74]
@[rollK] theorem p75 : k0_pay75 v0 v1 v2 𝐁₁ 𝐁₂ 𝐁₃ 𝐍 (𝐒 28) (𝐌₂ 28) = 𝐏 30 := by roll_val [k0_pay75]
@[rollK] theorem p76 : k0_pay76 v0 v1 v2 𝐁₁ 𝐁₂ 𝐁₃ 𝐍 (𝐒 28) (𝐌₂ 28) = 𝐌₁ 31 := by roll_val [k0_pay76]
@[rollK] theorem p1 : k0_pay1 v1 v2 𝐁₁ 𝐁₂ 𝐁₃ (𝐌₁ 31) = 𝐏 31 := by roll_val [k0_pay1]

end Cert.KernelIdeal.Roll

end
-- ==== Proof.Whole.lean ====
/-
  The whole result as one function of its index: for `R` rows, column `c` of row `r` is entry `c mod 128` of step
  `c / 128`'s prediction for the rollout of row `r` — the 32 predictions of every row side by side.  A block of the rows
  and the whole batch are the same function, at their own numbers of rows.
-/
import proofs.«167317_g2000209494350815_pallasbulk_913_1_alg».proof.Proof.Spec

noncomputable section

namespace Cert.Rollout

open Idealize.ShloMosaic Idealize.ShloMosaic.ValueIdx

/-- The predictions of `R` rows side by side, from the rows' first states `x`, their noise rows `n` and the six weight
    arrays. -/
def Gall {R : ℕ} (x : FVec Ideal ⟨2, ![R, 128]⟩ .f32) (n : FVec Ideal ⟨2, ![R, 4096]⟩ .f32)
    (w1 : FVec Ideal ⟨2, ![128, 256]⟩ .f32) (b1 : FVec Ideal ⟨2, ![1, 256]⟩ .f32)
    (w2 : FVec Ideal ⟨2, ![256, 256]⟩ .f32) (b2 : FVec Ideal ⟨2, ![1, 256]⟩ .f32)
    (w3 : FVec Ideal ⟨2, ![256, 128]⟩ .f32) (b3 : FVec Ideal ⟨2, ![1, 128]⟩ .f32) :
    (⟨2, ![R, 4096]⟩ : Shape).Idx → EReal :=
  fun y => colAt (pd w1 b1 w2 b2 w3 b3 (rowOf x (y 0)) (rowOf n (y 0)) ((y 1).val / 128)) ((y 1).val % 128)

/-! ## The host lines both programs share

Both programs prepare the same two arrays before their kernel — the first states `x[:, 0, :]` as a 512 × 128 array and the
noise with its last two axes merged, 512 × 4096 — and split the kernel's 512 × 4096 result back into 512 × 32 × 128.  They
are named here once, so that the two programs' results are compared without opening them. -/

/-- Row 0 of every batch entry's trajectory, as a 512 × 128 array. -/
def hostX (a : FVec Ideal ⟨3, ![512, 33, 128]⟩ .f32) : FVec Ideal ⟨2, ![512, 128]⟩ .f32 :=
  shapeCast ⟨2, ![512, 128]⟩ (extractStridedSlice ⟨3, ![512, 1, 128]⟩ ![0, 0, 0] a (by decide)) (by decide)

/-- The noise with its step and feature axes merged. -/
def hostN (a : FVec Ideal ⟨3, ![512, 32, 128]⟩ .f32) : FVec Ideal ⟨2, ![512, 4096]⟩ .f32 :=
  shapeCast ⟨2, ![512, 4096]⟩ a (by decide)

/-- The kernel's result with its columns split back into steps and features. -/
def hostOut (o : FVec Ideal ⟨2, ![512, 4096]⟩ .f32) : FVec Ideal ⟨3, ![512, 32, 128]⟩ .f32 :=
  shapeCast ⟨3, ![512, 32, 128]⟩ o (by decide)

/-- The result of either program, from the eight argument arrays. -/
def result (x : FVec Ideal ⟨3, ![512, 33, 128]⟩ .f32) (w1 : FVec Ideal ⟨2, ![128, 256]⟩ .f32) (b1 : FVec Ideal ⟨2, ![1, 256]⟩ .f32)
    (w2 : FVec Ideal ⟨2, ![256, 256]⟩ .f32) (b2 : FVec Ideal ⟨2, ![1, 256]⟩ .f32)
    (w3 : FVec Ideal ⟨2, ![256, 128]⟩ .f32) (b3 : FVec Ideal ⟨2, ![1, 128]⟩ .f32)
    (noises : FVec Ideal ⟨3, ![512, 32, 128]⟩ .f32) : FVec Ideal ⟨3, ![512, 32, 128]⟩ .f32 :=
  hostOut (Gall (hostX x) (hostN noises) w1 b1 w2 b2 w3 b3)

end Cert.Rollout

end
-- ==== Proof.KBlk.lean ====
/-
  What the body leaves in the block of the output: column `c` of row `p` is entry `c mod 128` of step `c / 128`'s prediction
  for that row — the 32 predictions side by side, each stored through its own 128-column rectangle.
-/
import proofs.«167317_g2000209494350815_pallasbulk_913_1_alg».proof.Proof.KPay
import proofs.«167317_g2000209494350815_pallasbulk_913_1_alg».proof.Proof.Whole

noncomputable section

namespace Cert.KernelIdeal.Roll

open Idealize.ShloMosaic Idealize.ShloMosaic.ValueIdx Cert.KernelIdeal Cert.Rollout

/-- Step `s`'s prediction for the block's rows is the part of that function under the rectangle of 128 columns that starts
    at column `o = 128 · s`. -/
theorem piece_at (x : Vec Ideal S128x128 .f32) (n : Vec Ideal S128x4096 .f32) (w1 : Vec Ideal S128x256 .f32) (b1 : Vec Ideal S1x256 .f32)
    (w2 : Vec Ideal S256x256 .f32) (b2 : Vec Ideal S1x256 .f32) (w3 : Vec Ideal S256x128 .f32) (b3 : Vec Ideal S1x128 .f32)
    (o s : ℕ) (ho : o = 128 * s) (inb : ∀ a, (![0, o] : Fin 2 → ℕ) a + S128x128.size a ≤ S128x4096.size a) (j : S128x128.Idx) :
    rows (fun p => pd w1 b1 w2 b2 w3 b3 (rowOf x p) (rowOf n p) s) j
      = Gall x n w1 b1 w2 b2 w3 b3 ((Rect.unit (s := S128x4096) ![0, o] S128x128.size inb).emb j) := by
  obtain ⟨p, q, rfl⟩ : ∃ (p : Fin 128) (q : Fin 128), j = ix2 p q := ⟨j 0, j 1, eq_ix2 j⟩
  have e0 : ((Rect.unit (s := S128x4096) ![0, o] S128x128.size inb).emb (ix2 p q)) 0 = p :=
    Fin.ext (by show 0 + 1 * p.val = p.val; omega)
  have e1 : (((Rect.unit (s := S128x4096) ![0, o] S128x128.size inb).emb (ix2 p q)) 1).val = o + q.val := by
    show o + 1 * q.val = o + q.val; omega
  have hq : q.val < 128 := q.isLt
  have d1 : (o + q.val) / 128 = s := by omega
  have d2 : (o + q.val) % 128 = q.val := by omega
  unfold Gall
  rw [e0, e1, d1, d2]
  show _ = colAt _ q.val
  unfold colAt
  rw [dif_pos hq]
  rfl

end Cert.KernelIdeal.Roll

end
-- ==== Proof.KBody.lean ====
/-
  The blocked program's body, read: after the body the output block is the 32 predictions of the block's rows side by
  side.  Each prediction is stored through its own rectangle of 128 columns; the rectangles tile the block, so at every
  index the block holds the one function `Gall` of the index.
-/
import proofs.«167317_g2000209494350815_pallasbulk_913_1_alg».proof.Proof.KIFrame
import proofs.«167317_g2000209494350815_pallasbulk_913_1_alg».proof.Proof.KBlk

noncomputable section

namespace Cert.KernelIdeal.Roll

open Idealize.ShloMosaic Idealize.ShloMosaic.ValueIdx Cert.KernelIdeal Cert.KernelIdeal.Gen Cert.KernelIdeal.GenP Cert.Rollout

theorem hz : (![0, 0] : Fin 2 → Nat) = fun _ => 0 := funext fun a => by fin_cases a <;> rfl

/-- What the body leaves in the output's staging buffer, from the eight input blocks, index by index. -/
theorem out0_8_apply (x0 : Vec Ideal S128x128 .f32) (x1 : Vec Ideal S128x4096 .f32) (x2 : Vec Ideal S128x256 .f32)
    (x3 : Vec Ideal S1x256 .f32) (x4 : Vec Ideal S256x256 .f32) (x5 : Vec Ideal S1x256 .f32) (x6 : Vec Ideal S256x128 .f32)
    (x7 : Vec Ideal S1x128 .f32) (y : S128x4096.Idx) :
    out0_8 x0 x1 x2 x3 x4 x5 x6 x7 y = Gall x0 x1 x2 x3 x4 x5 x6 x7 y := by
  unfold out0_8
  simp only [View.ld_unit_zero (S := S128x256) hz, View.ld_unit_zero (S := S256x256) hz, View.ld_unit_zero (S := S256x128) hz,
    View.ld_unit_zero (S := S1x256) hz, View.ld_unit_zero (S := S1x128) hz, View.ld_unit_zero (S := S128x4096) hz,
    View.ld_unit_zero (S := S128x128) hz, rollK]
  refine View.canon_apply_of_pieces (Val := Elt Ideal) (S := S128x4096) (e := .f32) (Gall x0 x1 x2 x3 x4 x5 x6 x7) _ ?_ y
    (cover0_8 _ _ _ _ _ _ _ _ _ _ _ _ _ _ _ _ _ _ _ _ _ _ _ _ _ _ _ _ _ _ _ _ y)
  intro p hp j
  simp only [List.mem_cons, List.mem_nil_iff, or_false] at hp
  rcases hp with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  -- the last piece is step 0's, which the body computes from the first states directly
  on_goal 32 => exact piece_at x0 x1 x2 x3 x4 x5 x6 x7 0 0 rfl (by decide) j
  all_goals (dsimp only; exact piece_at x0 x1 x2 x3 x4 x5 x6 x7 _ _ (by decide) (by decide) j)

end Cert.KernelIdeal.Roll

end
-- ==== Proof.KValue.lean ====
/-
  The blocked program's result, read off its frame run.

  The output array is written block by block: grid point `t` writes rows `128 t … 128 t + 127`.  The block it writes is the
  body's result at that point's input blocks, which are rows `128 t …` of the first-state array and of the noise array and
  the six weight arrays whole; so the block is the restriction to those rows of ONE function of the whole arrays, the four
  blocks cover the array, and the array ends holding that function.  The last host line reshapes it.
-/
import proofs.«167317_g2000209494350815_pallasbulk_913_1_alg».proof.Proof.KBody

noncomputable section

namespace Cert.KernelIdeal.Roll

open Idealize.ShloMosaic Idealize.ShloMosaic.TcCoe Idealize.ShloMosaic.ValueIdx Idealize.SL.Sem
open Cert.KernelIdeal Cert.KernelIdeal.Gen Cert.KernelIdeal.GenP Cert.Rollout
open Idealize.ShloMosaic.Pipeline (Dat)

variable (m : (ℓ : Loc nD τ sig) → Buf (Elt Ideal) ℓ) (ρ : Dev nD → PrngReg)

/-- The output array after the region, as one function of the arrays the region finds. -/
abbrev Gout (c : Dev nD) : S512x4096.Idx → EReal :=
  Gall (V m c main_v1) (V m c main_v2) (V m c main_arg1) (V m c main_arg2) (V m c main_arg3) (V m c main_arg4)
    (V m c main_arg5) (V m c main_arg6)

/-- The printed index maps, decided over the grid: the two row-blocked inputs and the output move together down the rows,
    one block of 128 rows per point; every other window stays at block 0. -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A weight window's block at any point is its whole array. -/
theorem iblk2 (c : Dev nD) (t : Fin cfg0.N) : iblk m c 2 t = V m c main_arg1 := by
  obtain ⟨-, -, -, -, -, -, e0, e1, -⟩ := idx_facts t
  funext y
  show V m c main_arg1 (((cfg0.win 2).blk t).view.emb y) = V m c main_arg1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega
theorem iblk3 (c : Dev nD) (t : Fin cfg0.N) : iblk m c 3 t = V m c main_arg2 := by
  obtain ⟨-, -, -, -, -, -, -, -, e0, e1, -⟩ := idx_facts t
  funext y
  show V m c main_arg2 (((cfg0.win 3).blk t).view.emb y) = V m c main_arg2 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega
theorem iblk4 (c : Dev nD) (t : Fin cfg0.N) : iblk m c 4 t = V m c main_arg3 := by
  obtain ⟨-, -, -, -, -, -, -, -, -, -, e0, e1, -⟩ := idx_facts t
  funext y
  show V m c main_arg3 (((cfg0.win 4).blk t).view.emb y) = V m c main_arg3 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem iblk5 (c : Dev nD) (t : Fin cfg0.N) : iblk m c 5 t = V m c main_arg4 := by
  obtain ⟨-, -, -, -, -, -, -, -, -, -, -, -, e0, e1, -⟩ := idx_facts t
  funext y
  show V m c main_arg4 (((cfg0.win 5).blk t).view.emb y) = V m c main_arg4 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem iblk6 (c : Dev nD) (t : Fin cfg0.N) : iblk m c 6 t = V m c main_arg5 := by
  obtain ⟨-, -, -, -, -, -, -, -, -, -, -, -, -, -, e0, e1, -⟩ := idx_facts t
  funext y
  show V m c main_arg5 (((cfg0.win 6).blk t).view.emb y) = V m c main_arg5 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega
theorem iblk7 (c : Dev nD) (t : Fin cfg0.N) : iblk m c 7 t = V m c main_arg6 := by
  obtain ⟨-, -, -, -, -, -, -, -, -, -, -, -, -, -, -, -, e0, e1⟩ := idx_facts t
  funext y
  show V m c main_arg6 (((cfg0.win 7).blk t).view.emb y) = V m c main_arg6 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Row `p` of point `t`'s block of first states is the row of the whole array that the output's block puts `p` on. -/
theorem row0 (c : Dev nD) (t : Fin cfg0.N) (j : S128x4096.Idx) :
    rowOf (iblk m c 0 t) (j 0) = rowOf (V m c main_v1) ((((cfg0.win 8).blk t).view.emb j) 0) := by
  obtain ⟨e0, e1, f0, f1, -⟩ := idx_facts t
  funext q
  show V m c main_v1 (((cfg0.win 0).blk t).view.emb (ix2 (j 0) q)) = V m c main_v1 (ix2 ((((cfg0.win 8).blk t).view.emb j) 0) q)
  refine congrArg _ (funext fun a => Fin.ext ?_)
  match a with
  | ⟨0, _⟩ => show win0_0.index t (0 : Fin 2) * 128 + 1 * (j 0).val = win0_8.index t (0 : Fin 2) * 128 + 1 * (j 0).val; omega
  | ⟨1, _⟩ => show win0_0.index t (1 : Fin 2) * 128 + 1 * q.val = q.val; omega
/-- The same for the noise rows. -/
theorem row1 (c : Dev nD) (t : Fin cfg0.N) (j : S128x4096.Idx) :
    rowOf (iblk m c 1 t) (j 0) = rowOf (V m c main_v2) ((((cfg0.win 8).blk t).view.emb j) 0) := by
  obtain ⟨e0, e1, -, -, f0, f1, -⟩ := idx_facts t
  funext q
  show V m c main_v2 (((cfg0.win 1).blk t).view.emb (ix2 (j 0) q)) = V m c main_v2 (ix2 ((((cfg0.win 8).blk t).view.emb j) 0) q)
  refine congrArg _ (funext fun a => Fin.ext ?_)
  match a with
  | ⟨0, _⟩ => show win0_1.index t (0 : Fin 2) * 128 + 1 * (j 0).val = win0_8.index t (0 : Fin 2) * 128 + 1 * (j 0).val; omega
  | ⟨1, _⟩ => show win0_1.index t (1 : Fin 2) * 4096 + 1 * q.val = q.val; omega

/-- WHAT POINT `t` WRITES BACK is block `t` of `Gout`. -/
theorem flushed_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8, iblk2, iblk3, iblk4, iblk5, iblk6, iblk7]
  funext j
  show out0_8 (iblk m c 0 t) (iblk m c 1 t) (V m c main_arg1) (V m c main_arg2) (V m c main_arg3) (V m c main_arg4)
      (V m c main_arg5) (V m c main_arg6) j = Gout m c (((cfg0.win 8).blk t).view.emb j)
  rw [out0_8_apply]
  have e1 : ((((cfg0.win 8).blk t).view.emb j) 1).val = (j 1).val := by
    obtain ⟨-, e1, -⟩ := idx_facts t
    show win0_8.index t (1 : Fin 2) * 4096 + 1 * (j 1).val = (j 1).val; omega
  unfold Gout Gall
  rw [row0 m c t j, row1 m c t j, e1]

/-- An index of the output array is in point `t`'s block iff each coordinate is in the block's range on its axis. -/
theorem mem_blk (t : Fin cfg0.N) (i : S512x4096.Idx) :
    i ∈ ((cfg0.win 8).blk t).view.set ↔ ∀ a : Fin 2, win0_8.index t a * S128x4096.size a ≤ (i a).val
      ∧ (i a).val < win0_8.index t a * S128x4096.size a + S128x4096.size a := by
  show i ∈ ((View.whole main_v3).slice (win0_8.rect t)).set ↔ _
  rw [View.set_slice_whole, Rect.mem_set_unit]
  exact Iff.rfl

/-- Every index of the output array is in the block of the point its row's quotient by 128 names. -/
theorem cover (i : S512x4096.Idx) : ∃ t : Fin cfg0.N, (cfg0.win 8).flush t = true ∧ i ∈ ((cfg0.win 8).blk t).view.set := by
  have hi0 : (i 0).val < 512 := (i 0).isLt
  have hi1 : (i 1).val < 4096 := (i 1).isLt
  have hN : grid0.N = 4 := N_0
  let t : Fin cfg0.N := ⟨(i 0).val / 128, by show (i 0).val / 128 < grid0.N; omega⟩
  obtain ⟨e0, e1, -⟩ := idx_facts t
  have ht : t.val = (i 0).val / 128 := rfl
  refine ⟨t, flush0_8 t, (mem_blk t i).mpr fun a => ?_⟩
  match a with
  | ⟨0, _⟩ =>
    show win0_8.index t (0 : Fin 2) * 128 ≤ (i 0).val ∧ (i 0).val < win0_8.index t (0 : Fin 2) * 128 + 128
    omega
  | ⟨1, _⟩ =>
    show win0_8.index t (1 : Fin 2) * 4096 ≤ (i 1).val ∧ (i 1).val < win0_8.index t (1 : Fin 2) * 4096 + 4096
    omega

/-- THE OUTPUT ARRAY after the region. -/
theorem final (c : Dev nD) : (dats m 0 c).arrAt 8 cfg0.N = Gout m c :=
  (dats m 0 c).arrAt_eq_of_cover 8 (Gout m c) (fun t _ => flushed_eq m c t) cover

end Cert.KernelIdeal.Roll

end
-- ==== Proof.KRun.lean ====
/-
  The blocked program's run, read: every weakly fair execution ends with the result array at `result` of the argument
  arrays and the arguments unchanged.  The frame run already places the kernel's output array at what the library computes
  from the body's blocks (`final`), the last host line reshapes that array into the result, and the two arrays the kernel
  reads besides the weights are what the host lines before it make of `x` and of the noise.
-/
import proofs.«167317_g2000209494350815_pallasbulk_913_1_alg».proof.Proof.KValue
import Idealize.ShloMosaic.Lib.StableHlo.Run

noncomputable section

namespace Cert.KernelIdeal.Roll

open Idealize.ShloMosaic Idealize.ShloMosaic.TcCoe Idealize.ShloMosaic.ValueIdx Idealize.ShloMosaic.StableHlo Idealize.SL.Sem
open Cert.KernelIdeal Cert.KernelIdeal.Gen Cert.KernelIdeal.GenP Cert.Rollout
open Idealize.ShloMosaic.Pipeline (Dat)

variable (m : (ℓ : Loc nD τ sig) → Buf (Elt Ideal) ℓ) (ρ : Dev nD → PrngReg)

/-- The first states the region finds: the host's slice and reshape of `x`. -/
theorem V_main_v1 (c : Dev nD) : V m c main_v1 = hostX (m ((c : Thread nD τ).loc main_arg0)) := by
  show StableHlo.after hostOps0 (fun b => m (c, b)) (Proc.devRef .tc main_v1) = _
  after_results
  rfl

/-- The noise rows the region finds: the host's reshape of the noise. -/
theorem V_main_v2 (c : Dev nD) : V m c main_v2 = hostN (m ((c : Thread nD τ).loc main_arg7)) := by
  show StableHlo.after hostOps0 (fun b => m (c, b)) (Proc.devRef .tc main_v2) = _
  after_results
  rfl

/-- The result buffer after the last host line: the reshape of the kernel's output array. -/
theorem tail_eq (c : Dev nD) :
    Pipeline.afterTail₀ cfgs (dats m) 0 (V0 m) [hostOps1] c main_v4 = hostOut ((dats m 0 c).arrAt 8 cfg0.N) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
      = (dats m 0 c).arrAt 8 cfg0.N from Pipeline.withArrays_arr spec0 launch0.win.arr_inj c _ _ 8]
  rfl

/-- The kernel's output array is the predictions of the host-prepared rows, from the launch contents of the arguments. -/
theorem Gout_eq (c : Dev nD) :
    Gout m c = Gall (hostX (m ((c : Thread nD τ).loc main_arg0))) (hostN (m ((c : Thread nD τ).loc main_arg7)))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold Gout
  rw [V_main_v1, V_main_v2, V_main_arg1, V_main_arg2, V_main_arg3, V_main_arg4, V_main_arg5, V_main_arg6]

/-- THE RUN, READ: the result array at `result` of the argument arrays, the arguments unchanged. -/
theorem run_value : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(((h c).2 main_v4 (Pipeline.mem_restRefs_of main_v4 (by decide) (by decide))).trans (tail_eq m c)).trans
        (by rw [final, Gout_eq]; rfl),
      (((h c).2 main_arg0 (Pipeline.mem_restRefs_of main_arg0 (by decide) (by decide))).trans (W_main_arg0 m (dats m) c)),
      ((h c).1 2).trans ((((dats m) 0 c).arrAt_in 2 rfl _).trans ((A_eq m c 2).trans (V_main_arg1 m c))),
      ((h c).1 3).trans ((((dats m) 0 c).arrAt_in 3 rfl _).trans ((A_eq m c 3).trans (V_main_arg2 m c))),
      ((h c).1 4).trans ((((dats m) 0 c).arrAt_in 4 rfl _).trans ((A_eq m c 4).trans (V_main_arg3 m c))),
      ((h c).1 5).trans ((((dats m) 0 c).arrAt_in 5 rfl _).trans ((A_eq m c 5).trans (V_main_arg4 m c))),
      ((h c).1 6).trans ((((dats m) 0 c).arrAt_in 6 rfl _).trans ((A_eq m c 6).trans (V_main_arg5 m c))),
      ((h c).1 7).trans ((((dats m) 0 c).arrAt_in 7 rfl _).trans ((A_eq m c 7).trans (V_main_arg6 m c))),
      (((h c).2 main_arg7 (Pipeline.mem_restRefs_of main_arg7 (by decide) (by decide))).trans (W_main_arg7 m (dats m) c))⟩)
    (run_main m ρ)

end Cert.KernelIdeal.Roll

end
-- ==== Proof.ROps.lean ====
/-
  The three matrix products of the network, over the 512-row batch this program's body works on, read row by row: each
  contracts the left operand's columns with the right operand's rows, so row `p` of the product is row `p` of the left
  operand times the weight matrix.
-/
import proofs.«167317_g2000209494350815_pallasbulk_913_1_alg».proof.Proof.Gen.ReferenceIdeal
import proofs.«167317_g2000209494350815_pallasbulk_913_1_alg».proof.Proof.Spec

noncomputable section

namespace Cert.ReferenceIdeal.Roll

open Idealize.ShloMosaic Idealize.ShloMosaic.ValueIdx Cert.ReferenceIdeal Cert.Rollout

/-! ### The dimension numbers of the three products, coordinate by coordinate -/

theorem d1_l0 (j : S512x256.Idx) (k : dot_S512x128_S128x256_S512x256_1_0_0_1_n_n.contr.Idx) :
    (dot_S512x128_S128x256_S512x256_1_0_0_1_n_n.lhsIdx j k 0 : ℕ) = j 0 := by
  simp [DotDims.lhsIdx, dot_S512x128_S128x256_S512x256_1_0_0_1_n_n]; rfl
theorem d1_l1 (j : S512x256.Idx) (k : dot_S512x128_S128x256_S512x256_1_0_0_1_n_n.contr.Idx) :
    (dot_S512x128_S128x256_S512x256_1_0_0_1_n_n.lhsIdx j k 1 : ℕ) = k ⟨0, by decide⟩ := by
  simp [DotDims.lhsIdx, dot_S512x128_S128x256_S512x256_1_0_0_1_n_n]; rfl
theorem d1_r0 (j : S512x256.Idx) (k : dot_S512x128_S128x256_S512x256_1_0_0_1_n_n.contr.Idx) :
    (dot_S512x128_S128x256_S512x256_1_0_0_1_n_n.rhsIdx j k 0 : ℕ) = k ⟨0, by decide⟩ := by
  simp [DotDims.rhsIdx, dot_S512x128_S128x256_S512x256_1_0_0_1_n_n]; rfl
theorem d1_r1 (j : S512x256.Idx) (k : dot_S512x128_S128x256_S512x256_1_0_0_1_n_n.contr.Idx) :
    (dot_S512x128_S128x256_S512x256_1_0_0_1_n_n.rhsIdx j k 1 : ℕ) = j 1 := by
  simp [DotDims.rhsIdx, dot_S512x128_S128x256_S512x256_1_0_0_1_n_n]; rfl

theorem d2_l0 (j : S512x256.Idx) (k : dot_S512x256_S256x256_S512x256_1_0_0_1_n_n.contr.Idx) :
    (dot_S512x256_S256x256_S512x256_1_0_0_1_n_n.lhsIdx j k 0 : ℕ) = j 0 := by
  simp [DotDims.lhsIdx, dot_S512x256_S256x256_S512x256_1_0_0_1_n_n]; rfl
theorem d2_l1 (j : S512x256.Idx) (k : dot_S512x256_S256x256_S512x256_1_0_0_1_n_n.contr.Idx) :
    (dot_S512x256_S256x256_S512x256_1_0_0_1_n_n.lhsIdx j k 1 : ℕ) = k ⟨0, by decide⟩ := by
  simp [DotDims.lhsIdx, dot_S512x256_S256x256_S512x256_1_0_0_1_n_n]; rfl
theorem d2_r0 (j : S512x256.Idx) (k : dot_S512x256_S256x256_S512x256_1_0_0_1_n_n.contr.Idx) :
    (dot_S512x256_S256x256_S512x256_1_0_0_1_n_n.rhsIdx j k 0 : ℕ) = k ⟨0, by decide⟩ := by
  simp [DotDims.rhsIdx, dot_S512x256_S256x256_S512x256_1_0_0_1_n_n]; rfl
theorem d2_r1 (j : S512x256.Idx) (k : dot_S512x256_S256x256_S512x256_1_0_0_1_n_n.contr.Idx) :
    (dot_S512x256_S256x256_S512x256_1_0_0_1_n_n.rhsIdx j k 1 : ℕ) = j 1 := by
  simp [DotDims.rhsIdx, dot_S512x256_S256x256_S512x256_1_0_0_1_n_n]; rfl

theorem d3_l0 (j : S512x128.Idx) (k : dot_S512x256_S256x128_S512x128_1_0_0_1_n_n.contr.Idx) :
    (dot_S512x256_S256x128_S512x128_1_0_0_1_n_n.lhsIdx j k 0 : ℕ) = j 0 := by
  simp [DotDims.lhsIdx, dot_S512x256_S256x128_S512x128_1_0_0_1_n_n]; rfl
theorem d3_l1 (j : S512x128.Idx) (k : dot_S512x256_S256x128_S512x128_1_0_0_1_n_n.contr.Idx) :
    (dot_S512x256_S256x128_S512x128_1_0_0_1_n_n.lhsIdx j k 1 : ℕ) = k ⟨0, by decide⟩ := by
  simp [DotDims.lhsIdx, dot_S512x256_S256x128_S512x128_1_0_0_1_n_n]; rfl
theorem d3_r0 (j : S512x128.Idx) (k : dot_S512x256_S256x128_S512x128_1_0_0_1_n_n.contr.Idx) :
    (dot_S512x256_S256x128_S512x128_1_0_0_1_n_n.rhsIdx j k 0 : ℕ) = k ⟨0, by decide⟩ := by
  simp [DotDims.rhsIdx, dot_S512x256_S256x128_S512x128_1_0_0_1_n_n]; rfl
theorem d3_r1 (j : S512x128.Idx) (k : dot_S512x256_S256x128_S512x128_1_0_0_1_n_n.contr.Idx) :
    (dot_S512x256_S256x128_S512x128_1_0_0_1_n_n.rhsIdx j k 1 : ℕ) = j 1 := by
  simp [DotDims.rhsIdx, dot_S512x256_S256x128_S512x128_1_0_0_1_n_n]; rfl

/-! ### The products, row by row -/

/-- The first layer's product: rows of length 128 times the 128 × 256 weights. -/
theorem mm1 (a : Fin 512 → Fin 128 → EReal) (w : FVec Ideal S128x256 .f32) :
    matmul dot_S512x128_S128x256_S512x256_1_0_0_1_n_n none (rows a) w (constant S512x256 .f32 0x00000000#32)
      = rows (fun p => vmm w (a p)) :=
  matmul_rows dot_S512x128_S128x256_S512x256_1_0_0_1_n_n rfl rfl d1_l0 d1_l1 d1_r0 d1_r1 a w

/-- The second layer's product: rows of length 256 times the 256 × 256 weights. -/
theorem mm2 (a : Fin 512 → Fin 256 → EReal) (w : FVec Ideal S256x256 .f32) :
    matmul dot_S512x256_S256x256_S512x256_1_0_0_1_n_n none (rows a) w (constant S512x256 .f32 0x00000000#32)
      = rows (fun p => vmm w (a p)) :=
  matmul_rows dot_S512x256_S256x256_S512x256_1_0_0_1_n_n rfl rfl d2_l0 d2_l1 d2_r0 d2_r1 a w

/-- The third layer's product: rows of length 256 times the 256 × 128 weights. -/
theorem mm3 (a : Fin 512 → Fin 256 → EReal) (w : FVec Ideal S256x128 .f32) :
    matmul dot_S512x256_S256x128_S512x128_1_0_0_1_n_n none (rows a) w (constant S512x128 .f32 0x00000000#32)
      = rows (fun p => vmm w (a p)) :=
  matmul_rows dot_S512x256_S256x128_S512x128_1_0_0_1_n_n rfl rfl d3_l0 d3_l1 d3_r0 d3_r1 a w

end Cert.ReferenceIdeal.Roll

end
-- ==== Proof.RPay.lean ====
/-
  What each named value of the whole-batch program's body is.

  The body unrolls 32 steps over all 512 rows at once and keeps every step's prediction to the end, where one
  concatenation lays them side by side.  Its named values come from cutting that long body at fixed statement counts, so
  a value may be a state, a prediction, or a stage in the middle of the network, and may start from values carried over
  the previous cut.  Each lemma says which stage of which step a named value is, as a family of 512 rollout rows, given
  that the carried values it starts from are the stages they should be.  Every proof is the same: open the value, read
  each operation row by row (a product reads only its own row of the left operand; sums, maxima, broadcast biases and
  column slices act inside a row), and compare with the rollout's definition.
-/
import proofs.«167317_g2000209494350815_pallasbulk_913_1_alg».proof.Proof.Gen.ReferenceIdeal.Skeleton
import proofs.«167317_g2000209494350815_pallasbulk_913_1_alg».proof.Proof.ROps
import proofs.«167317_g2000209494350815_pallasbulk_913_1_alg».proof.Proof.Attr

noncomputable section

namespace Cert.ReferenceIdeal.Roll

open Idealize.ShloMosaic Idealize.ShloMosaic.ValueIdx Cert.ReferenceIdeal Cert.ReferenceIdeal.Gen Cert.Rollout

variable (v0 : Vec Ideal S128x256 .f32) (v1 : Vec Ideal S256x256 .f32) (v2 : Vec Ideal S256x128 .f32)
  (v3 : Vec Ideal S1x256 .f32) (v6 : Vec Ideal S1x256 .f32) (v9 : Vec Ideal S1x128 .f32)
  (v12 : Vec Ideal S512x4096 .f32) (v16 : Vec Ideal S512x128 .f32)

/-! Row `p` of the batch after `s` steps, the named stages of the network at that state, the three biases as families
    of equal rows, and the scaled noise rows. -/
local notation "𝐒" s:max => rows (fun p => st v0 v3 v1 v6 v2 v9 (rowOf v16 p) (rowOf v12 p) s)
local notation "𝐏" s:max => rows (fun p => pd v0 v3 v1 v6 v2 v9 (rowOf v16 p) (rowOf v12 p) s)
local notation "𝐀₁" s:max => rows (fun p => la1 v0 v3 (st v0 v3 v1 v6 v2 v9 (rowOf v16 p) (rowOf v12 p) s))
local notation "𝐀₂" s:max => rows (fun p => la2 v0 v3 v1 v6 (st v0 v3 v1 v6 v2 v9 (rowOf v16 p) (rowOf v12 p) s))
local notation "𝐁₁" => rows (fun _ : Fin 512 => vbias v3)
local notation "𝐁₂" => rows (fun _ : Fin 512 => vbias v6)
local notation "𝐁₃" => rows (fun _ : Fin 512 => vbias v9)
local notation "𝐍" => rows (fun p : Fin 512 => vscale sigma (rowOf v12 p))

/-- Open the named value, read every operation row by row, and compare with the rollout's definition. -/
local macro "roll_val" "[" ts:Lean.Parser.Tactic.simpLemma,* "]" : tactic =>
  `(tactic| (simp only [$ts,*, rollR, shapeCast_self, addf_rows, maximumf_rows_zero, slice_rows, mm1, mm2, mm3]; first | done | rfl))

/-! ### The values every step shares: the biases down the batch's rows, the scaled noise, the first state -/

@[rollR] theorem p3 : k0_pay3 v3 = 𝐁₁ := by
  simp only [k0_pay3, shapeCast_self]; exact broadcastTo_rows v3 _
@[rollR] theorem p4 : k0_pay4 v6 = 𝐁₂ := by
  simp only [k0_pay4, shapeCast_self]; exact broadcastTo_rows v6 _
@[rollR] theorem p5 : k0_pay5 v9 = 𝐁₃ := by
  simp only [k0_pay5, shapeCast_self]; exact broadcastTo_rows v9 _
@[rollR] theorem p6 : k0_pay6 v12 = 𝐍 := by
  simp only [k0_pay6, shapeCast_self]
  exact (congrArg (fun v => mulf v (broadcast S512x4096 (Scalar.ofBits (F := Ideal) .f32 0x3C23D70A#32))) (eq_rows v12)).trans
    (mulf_rows_scalar (rowOf v12) sigma)
@[rollR] theorem p7 : k0_pay7 v16 = rows (rowOf v16) := by
  simp only [k0_pay7, shapeCast_self]; exact eq_rows v16

/-! ### Steps 0 to 31, in the order the body names its values -/

/-- Step 0's prediction needs no noise: it is the network at the batch's first rows. -/
@[rollR] theorem p8 : k0_pay8 v0 v1 v2 v3 v6 v9 v16 = rows (fun p => net v0 v3 v1 v6 v2 v9 (rowOf v16 p)) := by roll_val [k0_pay8]
@[rollR] theorem p9 : k0_pay9 v0 v1 v2 v3 v6 v9 v12 v16 = 𝐒 1 := by roll_val [k0_pay9]
@[rollR] theorem p10 : k0_pay10 v0 v1 v2 v3 v6 v9 v12 v16 = 𝐀₁ 1 := by roll_val [k0_pay10]
@[rollR] theorem p11 : k0_pay11 v1 v2 𝐁₂ 𝐁₃ (𝐀₁ 1) = 𝐏 1 := by roll_val [k0_pay11]
@[rollR] theorem p12 : k0_pay12 v1 v2 𝐁₂ 𝐁₃ 𝐍 (𝐒 1) (𝐀₁ 1) = 𝐒 2 := by roll_val [k0_pay12]
@[rollR] theorem p13 : k0_pay13 v0 v1 v2 𝐁₁ 𝐁₂ 𝐁₃ 𝐍 (𝐒 1) (𝐀₁ 1) = 𝐏 2 := by roll_val [k0_pay13]
@[rollR] theorem p14 : k0_pay14 v0 v1 v2 𝐁₁ 𝐁₂ 𝐁₃ 𝐍 (𝐒 1) (𝐀₁ 1) = 𝐒 3 := by roll_val [k0_pay14]
@[rollR] theorem p15 : k0_pay15 v0 v1 v2 𝐁₁ 𝐁₂ 𝐁₃ 𝐍 (𝐒 1) (𝐀₁ 1) = 𝐏 3 := by roll_val [k0_pay15]
@[rollR] theorem p16 : k0_pay16 v0 v1 v2 𝐁₁ 𝐁₂ 𝐁₃ 𝐍 (𝐒 1) (𝐀₁ 1) = 𝐒 4 := by roll_val [k0_pay16]
@[rollR] theorem p17 : k0_pay17 v0 v1 v2 𝐁₁ 𝐁₂ 𝐁₃ 𝐍 (𝐒 1) (𝐀₁ 1) = 𝐀₂ 4 := by roll_val [k0_pay17]
@[rollR] theorem p18 : k0_pay18 v2 𝐁₃ (𝐀₂ 4) = 𝐏 4 := by roll_val [k0_pay18]
@[rollR] theorem p19 : k0_pay19 v2 𝐁₃ 𝐍 (𝐒 4) (𝐀₂ 4) = 𝐒 5 := by roll_val [k0_pay19]
@[rollR] theorem p20 : k0_pay20 v0 v1 v2 𝐁₁ 𝐁₂ 𝐁₃ 𝐍 (𝐒 4) (𝐀₂ 4) = 𝐏 5 := by roll_val [k0_pay20]
@[rollR] theorem p21 : k0_pay21 v0 v1 v2 𝐁₁ 𝐁₂ 𝐁₃ 𝐍 (𝐒 4) (𝐀₂ 4) = 𝐒 6 := by roll_val [k0_pay21]
@[rollR] theorem p22 : k0_pay22 v0 v1 v2 𝐁₁ 𝐁₂ 𝐁₃ 𝐍 (𝐒 4) (𝐀₂ 4) = 𝐏 6 := by roll_val [k0_pay22]
@[rollR] theorem p23 : k0_pay23 v0 v1 v2 𝐁₁ 𝐁₂ 𝐁₃ 𝐍 (𝐒 4) (𝐀₂ 4) = 𝐒 7 := by roll_val [k0_pay23]
@[rollR] theorem p24 : k0_pay24 v0 v1 v2 𝐁₁ 𝐁₂ 𝐁₃ 𝐍 (𝐒 4) (𝐀₂ 4) = 𝐏 7 := by roll_val [k0_pay24]
@[rollR] theorem p25 : k0_pay25 v0 v1 v2 𝐁₁ 𝐁₂ 𝐁₃ 𝐍 (𝐒 4) (𝐀₂ 4) = 𝐒 8 := by roll_val [k0_pay25]
@[rollR] theorem p26 : k0_pay26 v0 v1 v2 𝐁₁ 𝐁₂ 𝐁₃ (𝐒 8) = 𝐏 8 := by roll_val [k0_pay26]
@[rollR] theorem p27 : k0_pay27 v0 v1 v2 𝐁₁ 𝐁₂ 𝐁₃ 𝐍 (𝐒 8) = 𝐒 9 := by roll_val [k0_pay27]
@[rollR] theorem p28 : k0_pay28 v0 v1 v2 𝐁₁ 𝐁₂ 𝐁₃ 𝐍 (𝐒 8) = 𝐏 9 := by roll_val [k0_pay28]
@[rollR] theorem p29 : k0_pay29 v0 v1 v2 𝐁₁ 𝐁₂ 𝐁₃ 𝐍 (𝐒 8) = 𝐒 10 := by roll_val [k0_pay29]
@[rollR] theorem p30 : k0_pay30 v0 v1 v2 𝐁₁ 𝐁₂ 𝐁₃ 𝐍 (𝐒 8) = 𝐏 10 := by roll_val [k0_pay30]
@[rollR] theorem p31 : k0_pay31 v0 v1 v2 𝐁₁ 𝐁₂ 𝐁₃ 𝐍 (𝐒 8) = 𝐒 11 := by roll_val [k0_pay31]
@[rollR] theorem p32 : k0_pay32 v0 v1 v2 𝐁₁ 𝐁₂ 𝐁₃ 𝐍 (𝐒 8) = 𝐀₁ 11 := by roll_val [k0_pay32]
@[rollR] theorem p33 : k0_pay33 v1 v2 𝐁₂ 𝐁₃ (𝐀₁ 11) = 𝐏 11 := by roll_val [k0_pay33]
@[rollR] theorem p34 : k0_pay34 v1 v2 𝐁₂ 𝐁₃ 𝐍 (𝐒 11) (𝐀₁ 11) = 𝐒 12 := by roll_val [k0_pay34]
@[rollR] theorem p35 : k0_pay35 v0 v1 v2 𝐁₁ 𝐁₂ 𝐁₃ 𝐍 (𝐒 11) (𝐀₁ 11) = 𝐏 12 := by roll_val [k0_pay35]
@[rollR] theorem p36 : k0_pay36 v0 v1 v2 𝐁₁ 𝐁₂ 𝐁₃ 𝐍 (𝐒 11) (𝐀₁ 11) = 𝐒 13 := by roll_val [k0_pay36]
@[rollR] theorem p37 : k0_pay37 v0 v1 v2 𝐁₁ 𝐁₂ 𝐁₃ 𝐍 (𝐒 11) (𝐀₁ 11) = 𝐏 13 := by roll_val [k0_pay37]
@[rollR] theorem p38 : k0_pay38 v0 v1 v2 𝐁₁ 𝐁₂ 𝐁₃ 𝐍 (𝐒 11) (𝐀₁ 11) = 𝐒 14 := by roll_val [k0_pay38]
@[rollR] theorem p39 : k0_pay39 v0 v1 v2 𝐁₁ 𝐁₂ 𝐁₃ 𝐍 (𝐒 11) (𝐀₁ 11) = 𝐀₂ 14 := by roll_val [k0_pay39]
@[rollR] theorem p40 : k0_pay40 v2 𝐁₃ (𝐀₂ 14) = 𝐏 14 := by roll_val [k0_pay40]
@[rollR] theorem p41 : k0_pay41 v2 𝐁₃ 𝐍 (𝐒 14) (𝐀₂ 14) = 𝐒 15 := by roll_val [k0_pay41]
@[rollR] theorem p42 : k0_pay42 v0 v1 v2 𝐁₁ 𝐁₂ 𝐁₃ 𝐍 (𝐒 14) (𝐀₂ 14) = 𝐏 15 := by roll_val [k0_pay42]
@[rollR] theorem p43 : k0_pay43 v0 v1 v2 𝐁₁ 𝐁₂ 𝐁₃ 𝐍 (𝐒 14) (𝐀₂ 14) = 𝐒 16 := by roll_val [k0_pay43]
@[rollR] theorem p44 : k0_pay44 v0 v1 v2 𝐁₁ 𝐁₂ 𝐁₃ 𝐍 (𝐒 14) (𝐀₂ 14) = 𝐏 16 := by roll_val [k0_pay44]
@[rollR] theorem p45 : k0_pay45 v0 v1 v2 𝐁₁ 𝐁₂ 𝐁₃ 𝐍 (𝐒 14) (𝐀₂ 14) = 𝐒 17 := by roll_val [k0_pay45]
@[rollR] theorem p46 : k0_pay46 v0 v1 v2 𝐁₁ 𝐁₂ 𝐁₃ 𝐍 (𝐒 14) (𝐀₂ 14) = 𝐏 17 := by roll_val [k0_pay46]
@[rollR] theorem p47 : k0_pay47 v0 v1 v2 𝐁₁ 𝐁₂ 𝐁₃ 𝐍 (𝐒 14) (𝐀₂ 14) = 𝐒 18 := by roll_val [k0_pay47]
@[rollR] theorem p48 : k0_pay48 v0 v1 v2 𝐁₁ 𝐁₂ 𝐁₃ (𝐒 18) = 𝐏 18 := by roll_val [k0_pay48]
@[rollR] theorem p49 : k0_pay49 v0 v1 v2 𝐁₁ 𝐁₂ 𝐁₃ 𝐍 (𝐒 18) = 𝐒 19 := by roll_val [k0_pay49]
@[rollR] theorem p50 : k0_pay50 v0 v1 v2 𝐁₁ 𝐁₂ 𝐁₃ 𝐍 (𝐒 18) = 𝐏 19 := by roll_val [k0_pay50]
@[rollR] theorem p51 : k0_pay51 v0 v1 v2 𝐁₁ 𝐁₂ 𝐁₃ 𝐍 (𝐒 18) = 𝐒 20 := by roll_val [k0_pay51]
@[rollR] theorem p52 : k0_pay52 v0 v1 v2 𝐁₁ 𝐁₂ 𝐁₃ 𝐍 (𝐒 18) = 𝐏 20 := by roll_val [k0_pay52]
@[rollR] theorem p53 : k0_pay53 v0 v1 v2 𝐁₁ 𝐁₂ 𝐁₃ 𝐍 (𝐒 18) = 𝐒 21 := by roll_val [k0_pay53]
@[rollR] theorem p54 : k0_pay54 v0 v1 v2 𝐁₁ 𝐁₂ 𝐁₃ 𝐍 (𝐒 18) = 𝐀₁ 21 := by roll_val [k0_pay54]
@[rollR] theorem p55 : k0_pay55 v1 v2 𝐁₂ 𝐁₃ (𝐀₁ 21) = 𝐏 21 := by roll_val [k0_pay55]
@[rollR] theorem p56 : k0_pay56 v1 v2 𝐁₂ 𝐁₃ 𝐍 (𝐒 21) (𝐀₁ 21) = 𝐒 22 := by roll_val [k0_pay56]
@[rollR] theorem p57 : k0_pay57 v0 v1 v2 𝐁₁ 𝐁₂ 𝐁₃ 𝐍 (𝐒 21) (𝐀₁ 21) = 𝐏 22 := by roll_val [k0_pay57]
@[rollR] theorem p58 : k0_pay58 v0 v1 v2 𝐁₁ 𝐁₂ 𝐁₃ 𝐍 (𝐒 21) (𝐀₁ 21) = 𝐒 23 := by roll_val [k0_pay58]
@[rollR] theorem p59 : k0_pay59 v0 v1 v2 𝐁₁ 𝐁₂ 𝐁₃ 𝐍 (𝐒 21) (𝐀₁ 21) = 𝐏 23 := by roll_val [k0_pay59]
@[rollR] theorem p60 : k0_pay60 v0 v1 v2 𝐁₁ 𝐁₂ 𝐁₃ 𝐍 (𝐒 21) (𝐀₁ 21) = 𝐒 24 := by roll_val [k0_pay60]
@[rollR] theorem p61 : k0_pay61 v0 v1 v2 𝐁₁ 𝐁₂ 𝐁₃ 𝐍 (𝐒 21) (𝐀₁ 21) = 𝐀₂ 24 := by roll_val [k0_pay61]
@[rollR] theorem p62 : k0_pay62 v2 𝐁₃ (𝐀₂ 24) = 𝐏 24 := by roll_val [k0_pay62]
@[rollR] theorem p63 : k0_pay63 v2 𝐁₃ 𝐍 (𝐒 24) (𝐀₂ 24) = 𝐒 25 := by roll_val [k0_pay63]
@[rollR] theorem p64 : k0_pay64 v0 v1 v2 𝐁₁ 𝐁₂ 𝐁₃ 𝐍 (𝐒 24) (𝐀₂ 24) = 𝐏 25 := by roll_val [k0_pay64]
@[rollR] theorem p65 : k0_pay65 v0 v1 v2 𝐁₁ 𝐁₂ 𝐁₃ 𝐍 (𝐒 24) (𝐀₂ 24) = 𝐒 26 := by roll_val [k0_pay65]
@[rollR] theorem p66 : k0_pay66 v0 v1 v2 𝐁₁ 𝐁₂ 𝐁₃ 𝐍 (𝐒 24) (𝐀₂ 24) = 𝐏 26 := by roll_val [k0_pay66]
@[rollR] theorem p67 : k0_pay67 v0 v1 v2 𝐁₁ 𝐁₂ 𝐁₃ 𝐍 (𝐒 24) (𝐀₂ 24) = 𝐒 27 := by roll_val [k0_pay67]
@[rollR] theorem p68 : k0_pay68 v0 v1 v2 𝐁₁ 𝐁₂ 𝐁₃ 𝐍 (𝐒 24) (𝐀₂ 24) = 𝐏 27 := by roll_val [k0_pay68]
@[rollR] theorem p69 : k0_pay69 v0 v1 v2 𝐁₁ 𝐁₂ 𝐁₃ 𝐍 (𝐒 24) (𝐀₂ 24) = 𝐒 28 := by roll_val [k0_pay69]
@[rollR] theorem p70 : k0_pay70 v0 v1 v2 𝐁₁ 𝐁₂ 𝐁₃ (𝐒 28) = 𝐏 28 := by roll_val [k0_pay70]
@[rollR] theorem p71 : k0_pay71 v0 v1 v2 𝐁₁ 𝐁₂ 𝐁₃ 𝐍 (𝐒 28) = 𝐒 29 := by roll_val [k0_pay71]
@[rollR] theorem p72 : k0_pay72 v0 v1 v2 𝐁₁ 𝐁₂ 𝐁₃ 𝐍 (𝐒 28) = 𝐏 29 := by roll_val [k0_pay72]
@[rollR] theorem p73 : k0_pay73 v0 v1 v2 𝐁₁ 𝐁₂ 𝐁₃ 𝐍 (𝐒 28) = 𝐒 30 := by roll_val [k0_pay73]
@[rollR] theorem p74 : k0_pay74 v0 v1 v2 𝐁₁ 𝐁₂ 𝐁₃ 𝐍 (𝐒 28) = 𝐏 30 := by roll_val [k0_pay74]
@[rollR] theorem p75 : k0_pay75 v0 v1 v2 𝐁₁ 𝐁₂ 𝐁₃ 𝐍 (𝐒 28) = 𝐀₁ 31 := by roll_val [k0_pay75]
@[rollR] theorem p1 : k0_pay1 v1 v2 𝐁₂ 𝐁₃ (𝐀₁ 31) = 𝐏 31 := by roll_val [k0_pay1]

end Cert.ReferenceIdeal.Roll

end
-- ==== Proof.RConcat.lean ====
/-
  Thirty-two blocks of 128 columns, block `s` the 512 rows' predictions of step `s`, concatenated along the columns, are the
  predictions side by side: column `c` of the result is entry `c mod 128` of step `c / 128`.
-/
import proofs.«167317_g2000209494350815_pallasbulk_913_1_alg».proof.Proof.RPay
import proofs.«167317_g2000209494350815_pallasbulk_913_1_alg».proof.Proof.Whole

noncomputable section

namespace Cert.ReferenceIdeal.Roll

open Idealize.ShloMosaic Idealize.ShloMosaic.ValueIdx Cert.ReferenceIdeal Cert.Rollout

/-- Thirty-two predictions of 128 columns each, concatenated along the columns in step order: column `c` is entry
    `c mod 128` of step `c / 128`. -/
theorem concat_eq (x : Vec Ideal S512x128 .f32) (n : Vec Ideal S512x4096 .f32) (w1 : Vec Ideal S128x256 .f32) (b1 : Vec Ideal S1x256 .f32)
    (w2 : Vec Ideal S256x256 .f32) (b2 : Vec Ideal S1x256 .f32) (w3 : Vec Ideal S256x128 .f32) (b3 : Vec Ideal S1x128 .f32)
    (h : Shape.Concatenates ((List.ofFn fun s : Fin 32 =>
        (⟨S512x128, rows (fun p => pd w1 b1 w2 b2 w3 b3 (rowOf x p) (rowOf n p) s.val)⟩ : (s : Shape) × (s.Idx → EReal))).map (·.1)) S512x4096 1) :
    concatenate S512x4096 1 (List.ofFn fun s : Fin 32 =>
        (⟨S512x128, rows (fun p => pd w1 b1 w2 b2 w3 b3 (rowOf x p) (rowOf n p) s.val)⟩ : (s : Shape) × (s.Idx → EReal))) h
      = Gall x n w1 b1 w2 b2 w3 b3 := by
  funext y
  obtain ⟨r, c, rfl⟩ : ∃ (r : Fin 512) (c : Fin 4096), y = ix2 r c := ⟨y 0, y 1, eq_ix2 y⟩
  have hc : c.val < 4096 := c.isLt
  have hm : c.val % 128 < 128 := Nat.mod_lt _ (by decide)
  refine (concatenate_ofFn_apply (t := S512x4096) (s₁ := S512x128) 1
    (fun s : Fin 32 => rows (fun p => pd w1 b1 w2 b2 w3 b3 (rowOf x p) (rowOf n p) s.val)) h rfl 128 rfl (ix2 r c)
    ⟨c.val / 128, by omega⟩ rfl (ix2 r ⟨c.val % 128, hm⟩) rfl ?_).trans ?_
  · intro b hb
    match b with
    | ⟨0, _⟩ => rfl
    | ⟨1, _⟩ => exact absurd rfl hb
  · show pd w1 b1 w2 b2 w3 b3 (rowOf x r) (rowOf n r) (c.val / 128) ⟨c.val % 128, hm⟩
        = colAt (pd w1 b1 w2 b2 w3 b3 (rowOf x r) (rowOf n r) (c.val / 128)) (c.val % 128)
    unfold colAt
    rw [dif_pos hm]

end Cert.ReferenceIdeal.Roll

end
-- ==== Proof.RBody.lean ====
/-
  The whole-batch program's body, read: it stores ONE value, the concatenation of the 32 predictions along the columns, so
  the output's staging buffer ends holding the predictions of the 512 rows side by side: the function `Gall` at 512 rows.
-/
import proofs.«167317_g2000209494350815_pallasbulk_913_1_alg».proof.Proof.RIFrame
import proofs.«167317_g2000209494350815_pallasbulk_913_1_alg».proof.Proof.RConcat

noncomputable section

namespace Cert.ReferenceIdeal.Roll

open Idealize.ShloMosaic Idealize.ShloMosaic.ValueIdx Cert.ReferenceIdeal Cert.ReferenceIdeal.Gen Cert.ReferenceIdeal.GenP Cert.Rollout

theorem hz : (![0, 0] : Fin 2 → Nat) = fun _ => 0 := funext fun a => by fin_cases a <;> rfl

/-- What the body leaves in the output's staging buffer, from the eight input blocks. -/
theorem out0_8_eq (x0 : Vec Ideal S512x128 .f32) (x1 : Vec Ideal S512x4096 .f32) (x2 : Vec Ideal S128x256 .f32)
    (x3 : Vec Ideal S1x256 .f32) (x4 : Vec Ideal S256x256 .f32) (x5 : Vec Ideal S1x256 .f32) (x6 : Vec Ideal S256x128 .f32)
    (x7 : Vec Ideal S1x128 .f32) :
    out0_8 x0 x1 x2 x3 x4 x5 x6 x7 = Gall x0 x1 x2 x3 x4 x5 x6 x7 := by
  unfold out0_8
  rw [View.canon_unit_zero hz]
  simp only [View.ld_unit_zero (S := S128x256) hz, View.ld_unit_zero (S := S256x256) hz, View.ld_unit_zero (S := S256x128) hz,
    View.ld_unit_zero (S := S1x256) hz, View.ld_unit_zero (S := S1x128) hz, View.ld_unit_zero (S := S512x4096) hz,
    View.ld_unit_zero (S := S512x128) hz, rollR]
  unfold k0_pay2
  exact concat_eq x0 x1 x2 x3 x4 x5 x6 x7 _

end Cert.ReferenceIdeal.Roll

end
-- ==== Proof.RValue.lean ====
/-
  The whole-batch program's result, read off its frame run.

  The grid has one point, and every window's block is its whole array; so the output array ends holding what the body
  leaves, the predictions of all 512 rows, and the last host line reshapes it.  The two arrays the kernel reads besides
  the weights are what the host lines before it make of `x` and of the noise.
-/
import proofs.«167317_g2000209494350815_pallasbulk_913_1_alg».proof.Proof.RBody
import Idealize.ShloMosaic.Lib.StableHlo.Run

noncomputable section

namespace Cert.ReferenceIdeal.Roll

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.GenP Cert.Rollout
open Idealize.ShloMosaic.Pipeline (Dat)

variable (m : (ℓ : Loc nD τ sig) → Buf (Elt Ideal) ℓ) (ρ : Dev nD → PrngReg)

/-- The output array after the region, as one function of the arrays the region finds. -/
abbrev Gout (c : Dev nD) : S512x4096.Idx → EReal :=
  Gall (V m c main_v1) (V m c main_v2) (V m c main_arg1) (V m c main_arg2) (V m c main_arg3) (V m c main_arg4)
    (V m c main_arg5) (V m c main_arg6)

/-- The printed index maps, decided over the one-point grid: every window stays at block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Each window's block at the one point is its whole array. -/
theorem iblk0 (c : Dev nD) (t : Fin cfg0.N) : iblk m c 0 t = V m c main_v1 := by
  obtain ⟨e0, e1, -⟩ := idx_facts t
  funext y
  show V m c main_v1 (((cfg0.win 0).blk t).view.emb y) = V m c main_v1 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 128 + 1 * (y 1).val = (y 1).val; omega
theorem iblk1 (c : Dev nD) (t : Fin cfg0.N) : iblk m c 1 t = V m c main_v2 := by
  obtain ⟨-, -, e0, e1, -⟩ := idx_facts t
  funext y
  show V m c main_v2 (((cfg0.win 1).blk t).view.emb y) = V m c main_v2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 4096 + 1 * (y 1).val = (y 1).val; omega
theorem iblk2 (c : Dev nD) (t : Fin cfg0.N) : iblk m c 2 t = V m c main_arg1 := by
  obtain ⟨-, -, -, -, e0, e1, -⟩ := idx_facts t
  funext y
  show V m c main_arg1 (((cfg0.win 2).blk t).view.emb y) = V m c main_arg1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega
theorem iblk3 (c : Dev nD) (t : Fin cfg0.N) : iblk m c 3 t = V m c main_arg2 := by
  obtain ⟨-, -, -, -, -, -, e0, e1, -⟩ := idx_facts t
  funext y
  show V m c main_arg2 (((cfg0.win 3).blk t).view.emb y) = V m c main_arg2 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega
theorem iblk4 (c : Dev nD) (t : Fin cfg0.N) : iblk m c 4 t = V m c main_arg3 := by
  obtain ⟨-, -, -, -, -, -, -, -, e0, e1, -⟩ := idx_facts t
  funext y
  show V m c main_arg3 (((cfg0.win 4).blk t).view.emb y) = V m c main_arg3 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem iblk5 (c : Dev nD) (t : Fin cfg0.N) : iblk m c 5 t = V m c main_arg4 := by
  obtain ⟨-, -, -, -, -, -, -, -, -, -, e0, e1, -⟩ := idx_facts t
  funext y
  show V m c main_arg4 (((cfg0.win 5).blk t).view.emb y) = V m c main_arg4 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem iblk6 (c : Dev nD) (t : Fin cfg0.N) : iblk m c 6 t = V m c main_arg5 := by
  obtain ⟨-, -, -, -, -, -, -, -, -, -, -, -, e0, e1, -⟩ := idx_facts t
  funext y
  show V m c main_arg5 (((cfg0.win 6).blk t).view.emb y) = V m c main_arg5 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega
theorem iblk7 (c : Dev nD) (t : Fin cfg0.N) : iblk m c 7 t = V m c main_arg6 := by
  obtain ⟨-, -, -, -, -, -, -, -, -, -, -, -, -, -, e0, e1, -⟩ := idx_facts t
  funext y
  show V m c main_arg6 (((cfg0.win 7).blk t).view.emb y) = V m c main_arg6 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- WHAT THE ONE POINT WRITES BACK is `Gout` read through the output's whole-array block. -/
theorem flushed_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8, iblk0, iblk1, iblk2, iblk3, iblk4, iblk5, iblk6, iblk7, out0_8_eq]
  obtain ⟨-, -, -, -, -, -, -, -, -, -, -, -, -, -, -, -, e0, e1⟩ := idx_facts t
  funext j
  show Gout m c j = Gout m c (((cfg0.win 8).blk t).view.emb j)
  refine congrArg _ (funext fun a => Fin.ext ?_)
  match a with
  | ⟨0, _⟩ => show (j 0).val = win0_8.index t (0 : Fin 2) * 512 + 1 * (j 0).val; omega
  | ⟨1, _⟩ => show (j 1).val = win0_8.index t (1 : Fin 2) * 4096 + 1 * (j 1).val; omega

/-- An index of the output array is in the one point's block iff each coordinate is in the block's range on its axis. -/
theorem mem_blk (t : Fin cfg0.N) (i : S512x4096.Idx) :
    i ∈ ((cfg0.win 8).blk t).view.set ↔ ∀ a : Fin 2, win0_8.index t a * S512x4096.size a ≤ (i a).val
      ∧ (i a).val < win0_8.index t a * S512x4096.size a + S512x4096.size a := by
  show i ∈ ((View.whole main_v3).slice (win0_8.rect t)).set ↔ _
  rw [View.set_slice_whole, Rect.mem_set_unit]
  exact Iff.rfl

/-- The one point's block covers the output array. -/
theorem cover (i : S512x4096.Idx) : ∃ t : Fin cfg0.N, (cfg0.win 8).flush t = true ∧ i ∈ ((cfg0.win 8).blk t).view.set := by
  have hi0 : (i 0).val < 512 := (i 0).isLt
  have hi1 : (i 1).val < 4096 := (i 1).isLt
  let t : Fin cfg0.N := ⟨0, by show 0 < grid0.N; decide⟩
  obtain ⟨-, -, -, -, -, -, -, -, -, -, -, -, -, -, -, -, e0, e1⟩ := idx_facts t
  refine ⟨t, flush0_8 t, (mem_blk t i).mpr fun a => ?_⟩
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 4096 ≤ (i 1).val ∧ (i 1).val < win0_8.index t (1 : Fin 2) * 4096 + 4096
    omega

/-- THE OUTPUT ARRAY after the region. -/
theorem final (c : Dev nD) : (dats m 0 c).arrAt 8 cfg0.N = Gout m c :=
  (dats m 0 c).arrAt_eq_of_cover 8 (Gout m c) (fun t _ => flushed_eq m c t) cover

/-! ## The host lines around the region -/

/-- The first states the region finds: the host's slice and reshape of `x`. -/
theorem V_main_v1 (c : Dev nD) : V m c main_v1 = hostX (m ((c : Thread nD τ).loc main_arg0)) := by
  show StableHlo.after hostOps0 (fun b => m (c, b)) (Proc.devRef .tc main_v1) = _
  after_results
  rfl

/-- The noise rows the region finds: the host's reshape of the noise. -/
theorem V_main_v2 (c : Dev nD) : V m c main_v2 = hostN (m ((c : Thread nD τ).loc main_arg7)) := by
  show StableHlo.after hostOps0 (fun b => m (c, b)) (Proc.devRef .tc main_v2) = _
  after_results
  rfl

/-- The result buffer after the last host line: the reshape of the kernel's output array. -/
theorem tail_eq (c : Dev nD) :
    Pipeline.afterTail₀ cfgs (dats m) 0 (V0 m) [hostOps1] c main_v4 = hostOut ((dats m 0 c).arrAt 8 cfg0.N) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
      = (dats m 0 c).arrAt 8 cfg0.N from Pipeline.withArrays_arr spec0 launch0.win.arr_inj c _ _ 8]
  rfl

/-- The kernel's output array is the predictions of the host-prepared rows, from the launch contents of the arguments. -/
theorem Gout_eq (c : Dev nD) :
    Gout m c = Gall (hostX (m ((c : Thread nD τ).loc main_arg0))) (hostN (m ((c : Thread nD τ).loc main_arg7)))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold Gout
  rw [V_main_v1, V_main_v2, V_main_arg1, V_main_arg2, V_main_arg3, V_main_arg4, V_main_arg5, V_main_arg6]

/-- THE RUN, READ: the result array at `result` of the argument arrays, the arguments unchanged. -/
theorem run_value : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(((h c).2 main_v4 (Pipeline.mem_restRefs_of main_v4 (by decide) (by decide))).trans (tail_eq m c)).trans
        (by rw [final, Gout_eq]; rfl),
      (((h c).2 main_arg0 (Pipeline.mem_restRefs_of main_arg0 (by decide) (by decide))).trans (W_main_arg0 m (dats m) c)),
      ((h c).1 2).trans ((((dats m) 0 c).arrAt_in 2 rfl _).trans ((A_eq m c 2).trans (V_main_arg1 m c))),
      ((h c).1 3).trans ((((dats m) 0 c).arrAt_in 3 rfl _).trans ((A_eq m c 3).trans (V_main_arg2 m c))),
      ((h c).1 4).trans ((((dats m) 0 c).arrAt_in 4 rfl _).trans ((A_eq m c 4).trans (V_main_arg3 m c))),
      ((h c).1 5).trans ((((dats m) 0 c).arrAt_in 5 rfl _).trans ((A_eq m c 5).trans (V_main_arg4 m c))),
      ((h c).1 6).trans ((((dats m) 0 c).arrAt_in 6 rfl _).trans ((A_eq m c 6).trans (V_main_arg5 m c))),
      ((h c).1 7).trans ((((dats m) 0 c).arrAt_in 7 rfl _).trans ((A_eq m c 7).trans (V_main_arg6 m c))),
      (((h c).2 main_arg7 (Pipeline.mem_restRefs_of main_arg7 (by decide) (by decide))).trans (W_main_arg7 m (dats m) c))⟩)
    (run_main m ρ)

end Cert.ReferenceIdeal.Roll

end
-- ==== Proof.lean ====
/-
  Two programs for one computation: a batch of 512 rows is rolled out 32 steps — at each step a three-layer network predicts
  a residual from the row's state, the prediction is recorded, and the state moves on by the prediction plus that step's
  scaled noise.  One program runs the whole batch in a single kernel invocation and stores the 32 predictions at the end as
  one concatenation; the other cuts the batch into four blocks of 128 rows, one per grid point, and stores each step's
  prediction as soon as it is made.

  Why they agree at the ideal instance: every operation of the body acts on each row separately — a product of the
  state with a weight matrix reads only its own row of the state; sums, maxima with zero, broadcast biases and column
  slices of the noise act inside a row.  So each named value of either body is a family of rows of ONE row-level
  rollout (Proof/Spec.lean), whatever the number of rows it handles at once (Proof/KPay.lean for 128 rows, Proof/RPay.lean
  for 512).  The blocked program's four blocks are the restrictions of the whole-batch function to their rows and tile
  the output array (Proof/KValue.lean); the whole-batch program's single concatenation is the same function
  (Proof/RBody.lean).  Both results are `Cert.Rollout.result` of the argument arrays; no property of the inputs is used.
  The idealization rewrote nothing, so `preserves` is trivial.
-/
import proofs.«167317_g2000209494350815_pallasbulk_913_1_alg».proof.Defs
import proofs.«167317_g2000209494350815_pallasbulk_913_1_alg».proof.Proof.Gen.Kernel
import proofs.«167317_g2000209494350815_pallasbulk_913_1_alg».proof.Proof.Gen.KernelIdeal
import proofs.«167317_g2000209494350815_pallasbulk_913_1_alg».proof.Proof.Gen.ReferenceIdeal
import proofs.«167317_g2000209494350815_pallasbulk_913_1_alg».proof.Proof.Gen.Pre_finite_inputs
import proofs.«167317_g2000209494350815_pallasbulk_913_1_alg».proof.Proof.KFrame
import proofs.«167317_g2000209494350815_pallasbulk_913_1_alg».proof.Proof.KRun
import proofs.«167317_g2000209494350815_pallasbulk_913_1_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ => Cert.ReferenceIdeal.GenP.frame m ρ

/-- Both programs end with the result array at `Cert.Rollout.result` of their arguments, and the arguments agree. -/
theorem algebraic : Cert.algebraic_KernelIdeal_ReferenceIdeal := by
  intro m ρ m' ρ' _ hagree
  refine ⟨_, Cert.KernelIdeal.Roll.run_value m ρ, ?_⟩
  refine (θ_run Cert.ReferenceIdeal.defs _ _).mono (fun _ h c => ⟨(h c).1.trans ?_, (h c).2⟩)
    (Cert.ReferenceIdeal.Roll.run_value m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
